-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000 : Shape := ⟨1, ![320000]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg4 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  main_v23

def fn {F : FTy → Type} [FloatOps F] (main_arg0 : FVec F S10000x256 .f32) (main_arg1 : FVec F S320000 .f32) (main_arg2 : FVec F S256x256 .f32) (main_arg3 : FVec F S256x256 .f32) (main_arg4 : FVec F S256x256 .f32) (main_arg5 : IVec S320000 32) (main_arg6 : IVec S320000 32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000 .f32 := Host.absf main_arg1
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S10000x256 : Shape := ⟨2, ![10000, 256]⟩
abbrev S320000 : Shape := ⟨1, ![320000]⟩
abbrev S256x256 : Shape := ⟨2, ![256, 256]⟩
abbrev S256x768 : Shape := ⟨2, ![256, 768]⟩
abbrev S10000x768 : Shape := ⟨2, ![10000, 768]⟩
abbrev S1000x256 : Shape := ⟨2, ![1000, 256]⟩
abbrev S1000x768 : Shape := ⟨2, ![1000, 768]⟩
abbrev S320000x1 : Shape := ⟨2, ![320000, 1]⟩
abbrev S_ : Shape := ⟨0, ![]⟩
abbrev S320000x256 : Shape := ⟨2, ![320000, 256]⟩

abbrev nBuf : Space → Nat
  | .hbm => 109
  | .vmem => 13
  | .smem => 0
  | _ => 0

abbrev bufTy : (tb : Table) → Fin (tcTables nBuf tb) → BufTy
  | .hbm, ⟨0, _⟩ => ⟨S10000x256, .f32⟩
  | .hbm, ⟨1, _⟩ => ⟨S320000, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S320000, .i32⟩
  | .hbm, ⟨6, _⟩ => ⟨S320000, .i32⟩
  | .hbm, ⟨7, _⟩ => ⟨S256x768, .f32⟩
  | .hbm, ⟨8, _⟩ => ⟨S10000x768, .f32⟩
  | .hbm, ⟨9, _⟩ => ⟨S10000x256, .f32⟩
  | .hbm, ⟨10, _⟩ => ⟨S10000x256, .f32⟩
  | .hbm, ⟨11, _⟩ => ⟨S10000x256, .f32⟩
  | .hbm, ⟨12, _⟩ => ⟨S320000x1, .f32⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S320000x1, .i32⟩
  | .hbm, ⟨21, _⟩ => ⟨S320000x256, .f32⟩
  | .hbm, ⟨22, _⟩ => ⟨S320000x256, .f32⟩
  | .hbm, ⟨23, _⟩ => ⟨S320000x256, .f32⟩
  | .hbm, ⟨24, _⟩ => ⟨S_, .f32⟩
  | .hbm, ⟨25, _⟩ => ⟨S10000x256, .f32⟩
  | .hbm, ⟨26, _⟩ => ⟨S320000x1, .i32⟩
  | .hbm, ⟨27, _⟩ => ⟨S10000x256, .f32⟩
  | .hbm, ⟨28, _⟩ => ⟨S320000x1, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x256, .f32⟩
  | .hbm, ⟨38, _⟩ => ⟨S320000x256, .f32⟩
  | .hbm, ⟨39, _⟩ => ⟨S320000x256, .f32⟩
  | .hbm, ⟨40, _⟩ => ⟨S_, .f32⟩
  | .hbm, ⟨41, _⟩ => ⟨S10000x256, .f32⟩
  | .hbm, ⟨42, _⟩ => ⟨S320000x1, .i32⟩
  | .hbm, ⟨43, _⟩ => ⟨S10000x256, .f32⟩
  | .hbm, ⟨44, _⟩ => ⟨S320000x1, .f32⟩
  | .hbm, ⟨45, _⟩ => ⟨S_, .i32⟩
  | .hbm, ⟨46, _⟩ => ⟨S320000, .i32⟩
  | .hbm, ⟨47, _⟩ => ⟨S320000, .i1⟩
  | .hbm, ⟨48, _⟩ => ⟨S_, .i32⟩
  | .hbm, ⟨49, _⟩ => ⟨S320000, .i32⟩
  | .hbm, ⟨50, _⟩ => ⟨S320000, .i32⟩
  | .hbm, ⟨51, _⟩ => ⟨S320000, .i32⟩
  | .hbm, ⟨52, _⟩ => ⟨S320000x1, .i32⟩
  | .hbm, ⟨53, _⟩ => ⟨S320000x256, .f32⟩
  | .hbm, ⟨54, _⟩ => ⟨S320000x256, .f32⟩
  | .hbm, ⟨55, _⟩ => ⟨S320000x256, .f32⟩
  | .hbm, ⟨56, _⟩ => ⟨S_, .f32⟩
  | .hbm, ⟨57, _⟩ => ⟨S10000x256, .f32⟩
  | .hbm, ⟨58, _⟩ => ⟨S320000x1, .i32⟩
  | .hbm, ⟨59, _⟩ => ⟨S10000x256, .f32⟩
  | .hbm, ⟨60, _⟩ => ⟨S320000x1, .f32⟩
  | .hbm, ⟨61, _⟩ => ⟨S_, .i32⟩
  | .hbm, ⟨62, _⟩ => ⟨S320000, .i32⟩
  | .hbm, ⟨63, _⟩ => ⟨S320000, .i1⟩
  | .hbm, ⟨64, _⟩ => ⟨S_, .i32⟩
  | .hbm, ⟨65, _⟩ => ⟨S320000, .i32⟩
  | .hbm, ⟨66, _⟩ => ⟨S320000, .i32⟩
  | .hbm, ⟨67, _⟩ => ⟨S320000, .i32⟩
  | .hbm, ⟨68, _⟩ => ⟨S320000x1, .i32⟩
  | .hbm, ⟨69, _⟩ => ⟨S320000x256, .f32⟩
  | .hbm, ⟨70, _⟩ => ⟨S320000x256, .f32⟩
  | .hbm, ⟨71, _⟩ => ⟨S320000x256, .f32⟩
  | .hbm, ⟨72, _⟩ => ⟨S_, .f32⟩
  | .hbm, ⟨73, _⟩ => ⟨S10000x256, .f32⟩
  | .hbm, ⟨74, _⟩ => ⟨S320000x1, .i32⟩
  | .hbm, ⟨75, _⟩ => ⟨S10000x256, .f32⟩
  | .hbm, ⟨76, _⟩ => ⟨S320000x1, .f32⟩
  | .hbm, ⟨77, _⟩ => ⟨S_, .i32⟩
  | .hbm, ⟨78, _⟩ => ⟨S320000, .i32⟩
  | .hbm, ⟨79, _⟩ => ⟨S320000, .i1⟩
  | .hbm, ⟨80, _⟩ => ⟨S_, .i32⟩
  | .hbm, ⟨81, _⟩ => ⟨S320000, .i32⟩
  | .hbm, ⟨82, _⟩ => ⟨S320000, .i32⟩
  | .hbm, ⟨83, _⟩ => ⟨S320000, .i32⟩
  | .hbm, ⟨84, _⟩ => ⟨S320000x1, .i32⟩
  | .hbm, ⟨85, _⟩ => ⟨S320000x256, .f32⟩
  | .hbm, ⟨86, _⟩ => ⟨S320000x256, .f32⟩
  | .hbm, ⟨87, _⟩ => ⟨S320000x256, .f32⟩
  | .hbm, ⟨88, _⟩ => ⟨S_, .f32⟩
  | .hbm, ⟨89, _⟩ => ⟨S10000x256, .f32⟩
  | .hbm, ⟨90, _⟩ => ⟨S320000x1, .i32⟩
  | .hbm, ⟨91, _⟩ => ⟨S10000x256, .f32⟩
  | .hbm, ⟨92, _⟩ => ⟨S320000x1, .f32⟩
  | .hbm, ⟨93, _⟩ => ⟨S_, .i32⟩
  | .hbm, ⟨94, _⟩ => ⟨S320000, .i32⟩
  | .hbm, ⟨95, _⟩ => ⟨S320000, .i1⟩
  | .hbm, ⟨96, _⟩ => ⟨S_, .i32⟩
  | .hbm, ⟨97, _⟩ => ⟨S320000, .i32⟩
  | .hbm, ⟨98, _⟩ => ⟨S320000, .i32⟩
  | .hbm, ⟨99, _⟩ => ⟨S320000, .i32⟩
  | .hbm, ⟨100, _⟩ => ⟨S320000x1, .i32⟩
  | .hbm, ⟨101, _⟩ => ⟨S320000x256, .f32⟩
  | .hbm, ⟨102, _⟩ => ⟨S320000x256, .f32⟩
  | .hbm, ⟨103, _⟩ => ⟨S320000x256, .f32⟩
  | .hbm, ⟨104, _⟩ => ⟨S_, .f32⟩
  | .hbm, ⟨105, _⟩ => ⟨S10000x256, .f32⟩
  | .hbm, ⟨106, _⟩ => ⟨S320000x1, .i32⟩
  | .hbm, ⟨107, _⟩ => ⟨S10000x256, .f32⟩
  | .hbm, ⟨108, _⟩ => ⟨S10000x256, .f32⟩
  | .local _ .vmem, ⟨0, _⟩ => ⟨S1000x256, .f32⟩
  | .local _ .vmem, ⟨1, _⟩ => ⟨S1000x256, .f32⟩
  | .local _ .vmem, ⟨2, _⟩ => ⟨S256x768, .f32⟩
  | .local _ .vmem, ⟨3, _⟩ => ⟨S1000x768, .f32⟩
  | .local _ .vmem, ⟨4, _⟩ => ⟨S1000x768, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S1000x256, .f32⟩
  | .local _ .vmem, ⟨11, _⟩ => ⟨S1000x256, .f32⟩
  | .local _ .vmem, ⟨12, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_7 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_10 : Ref sig .tc := ⟨.hbm, 77, rfl⟩
abbrev main_v58 : Ref sig .tc := ⟨.hbm, 78, rfl⟩
abbrev main_v59 : Ref sig .tc := ⟨.hbm, 79, rfl⟩
abbrev main_c_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_12 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_c_13 : Ref sig .tc := ⟨.hbm, 93, rfl⟩
abbrev main_v71 : Ref sig .tc := ⟨.hbm, 94, rfl⟩
abbrev main_v72 : Ref sig .tc := ⟨.hbm, 95, rfl⟩
abbrev main_c_14 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_15 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S256x256_S256x256_S256x256_S256x768_d1 : Shape.Concatenates [S256x256, S256x256, S256x256] S256x768 1
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1000x768_S1000x768_0_0 : ∀ a, (![0, 0] : Fin 2 → Nat) a + S1000x768.size a ≤ S1000x768.size a
  h_S1000x768 : 0 < S1000x768.numel
  slices_S10000x768_S10000x256_0_0 : S10000x768.Slices ![0, 0] S10000x256
  slices_S10000x768_S10000x256_0_256 : S10000x768.Slices ![0, 256] S10000x256
  slices_S10000x768_S10000x256_0_512 : S10000x768.Slices ![0, 512] S10000x256
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  shapeCasts_S1000x256_S1000x256 : S1000x256.ShapeCasts S1000x256
  dot_S1000x256_S256x768_S1000x768_1_0_0_1_n_n_wf : DotDims.WF S1000x256 S256x768 S1000x768 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x768.size a ≤ S10000x768.size a
  hwx0_2 : ∀ i : grid0.Coords, EltTy.bits .f32 = 32 ∨ (Rect.block (s := S10000x768) S1000x768.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S10000x256.size a
  hwx1_1 : ∀ i : grid1.Coords, EltTy.bits .f32 = 32 ∨ (Rect.block (s := S10000x256) S1000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x256.size a ≤ S10000x256.size a
  hwx1_2 : ∀ i : grid1.Coords, EltTy.bits .f32 = 32 ∨ (Rect.block (s := S10000x256) S1000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S10000x256.size a
  hwx1_3 : ∀ i : grid1.Coords, EltTy.bits .f32 = 32 ∨ (Rect.block (s := S10000x256) S1000x256.size (cc1_transform_3 i) (hinb1_3 i)).WholeWords (EltTy.packing .f32)

variable [Facts₀]

def dot_S1000x256_S256x768_S1000x768_1_0_0_1_n_n : DotDims S1000x256 S256x768 S1000x768 where
  lhsContracting := [1]
  rhsContracting := [0]
  lhsNonContracting := [0]
  rhsNonContracting := [1]
  lhsBatch := []
  rhsBatch := []
  wf := dot_S1000x256_S256x768_S1000x768_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1000x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v82) S1000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v83) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x256 : Shape := ⟨2, ![10000, 256]⟩
abbrev S320000 : Shape := ⟨1, ![320000]⟩
abbrev S256x256 : Shape := ⟨2, ![256, 256]⟩
abbrev S320000x1 : Shape := ⟨2, ![320000, 1]⟩
abbrev S_ : Shape := ⟨0, ![]⟩
abbrev S320000x256 : Shape := ⟨2, ![320000, 256]⟩

abbrev nBuf : Space → Nat
  | .hbm => 114
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S320000, .i32⟩
  | .hbm, ⟨6, _⟩ => ⟨S320000, .i32⟩
  | .hbm, ⟨7, _⟩ => ⟨S10000x256, .f32⟩
  | .hbm, ⟨8, _⟩ => ⟨S320000x1, .f32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x256, .f32⟩
  | .hbm, ⟨18, _⟩ => ⟨S320000x256, .f32⟩
  | .hbm, ⟨19, _⟩ => ⟨S320000x256, .f32⟩
  | .hbm, ⟨20, _⟩ => ⟨S_, .f32⟩
  | .hbm, ⟨21, _⟩ => ⟨S10000x256, .f32⟩
  | .hbm, ⟨22, _⟩ => ⟨S320000x1, .i32⟩
  | .hbm, ⟨23, _⟩ => ⟨S10000x256, .f32⟩
  | .hbm, ⟨24, _⟩ => ⟨S10000x256, .f32⟩
  | .hbm, ⟨25, _⟩ => ⟨S320000x1, .f32⟩
  | .hbm, ⟨26, _⟩ => ⟨S_, .i32⟩
  | .hbm, ⟨27, _⟩ => ⟨S320000, .i32⟩
  | .hbm, ⟨28, _⟩ => ⟨S320000, .i1⟩
  | .hbm, ⟨29, _⟩ => ⟨S_, .i32⟩
  | .hbm, ⟨30, _⟩ => ⟨S320000, .i32⟩
  | .hbm, ⟨31, _⟩ => ⟨S320000, .i32⟩
  | .hbm, ⟨32, _⟩ => ⟨S320000, .i32⟩
  | .hbm, ⟨33, _⟩ => ⟨S320000x1, .i32⟩
  | .hbm, ⟨34, _⟩ => ⟨S320000x256, .f32⟩
  | .hbm, ⟨35, _⟩ => ⟨S320000x256, .f32⟩
  | .hbm, ⟨36, _⟩ => ⟨S320000x256, .f32⟩
  | .hbm, ⟨37, _⟩ => ⟨S_, .f32⟩
  | .hbm, ⟨38, _⟩ => ⟨S10000x256, .f32⟩
  | .hbm, ⟨39, _⟩ => ⟨S320000x1, .i32⟩
  | .hbm, ⟨40, _⟩ => ⟨S10000x256, .f32⟩
  | .hbm, ⟨41, _⟩ => ⟨S320000x1, .f32⟩
  | .hbm, ⟨42, _⟩ => ⟨S_, .i32⟩
  | .hbm, ⟨43, _⟩ => ⟨S320000, .i32⟩
  | .hbm, ⟨44, _⟩ => ⟨S320000, .i1⟩
  | .hbm, ⟨45, _⟩ => ⟨S_, .i32⟩
  | .hbm, ⟨46, _⟩ => ⟨S320000, .i32⟩
  | .hbm, ⟨47, _⟩ => ⟨S320000, .i32⟩
  | .hbm, ⟨48, _⟩ => ⟨S320000, .i32⟩
  | .hbm, ⟨49, _⟩ => ⟨S320000x1, .i32⟩
  | .hbm, ⟨50, _⟩ => ⟨S320000x256, .f32⟩
  | .hbm, ⟨51, _⟩ => ⟨S320000x256, .f32⟩
  | .hbm, ⟨52, _⟩ => ⟨S320000x256, .f32⟩
  | .hbm, ⟨53, _⟩ => ⟨S_, .f32⟩
  | .hbm, ⟨54, _⟩ => ⟨S10000x256, .f32⟩
  | .hbm, ⟨55, _⟩ => ⟨S320000x1, .i32⟩
  | .hbm, ⟨56, _⟩ => ⟨S10000x256, .f32⟩
  | .hbm, ⟨57, _⟩ => ⟨S10000x256, .f32⟩
  | .hbm, ⟨58, _⟩ => ⟨S320000x1, .f32⟩
  | .hbm, ⟨59, _⟩ => ⟨S_, .i32⟩
  | .hbm, ⟨60, _⟩ => ⟨S320000, .i32⟩
  | .hbm, ⟨61, _⟩ => ⟨S320000, .i1⟩
  | .hbm, ⟨62, _⟩ => ⟨S_, .i32⟩
  | .hbm, ⟨63, _⟩ => ⟨S320000, .i32⟩
  | .hbm, ⟨64, _⟩ => ⟨S320000, .i32⟩
  | .hbm, ⟨65, _⟩ => ⟨S320000, .i32⟩
  | .hbm, ⟨66, _⟩ => ⟨S320000x1, .i32⟩
  | .hbm, ⟨67, _⟩ => ⟨S320000x256, .f32⟩
  | .hbm, ⟨68, _⟩ => ⟨S320000x256, .f32⟩
  | .hbm, ⟨69, _⟩ => ⟨S320000x256, .f32⟩
  | .hbm, ⟨70, _⟩ => ⟨S_, .f32⟩
  | .hbm, ⟨71, _⟩ => ⟨S10000x256, .f32⟩
  | .hbm, ⟨72, _⟩ => ⟨S320000x1, .i32⟩
  | .hbm, ⟨73, _⟩ => ⟨S10000x256, .f32⟩
  | .hbm, ⟨74, _⟩ => ⟨S320000x1, .f32⟩
  | .hbm, ⟨75, _⟩ => ⟨S_, .i32⟩
  | .hbm, ⟨76, _⟩ => ⟨S320000, .i32⟩
  | .hbm, ⟨77, _⟩ => ⟨S320000, .i1⟩
  | .hbm, ⟨78, _⟩ => ⟨S_, .i32⟩
  | .hbm, ⟨79, _⟩ => ⟨S320000, .i32⟩
  | .hbm, ⟨80, _⟩ => ⟨S320000, .i32⟩
  | .hbm, ⟨81, _⟩ => ⟨S320000, .i32⟩
  | .hbm, ⟨82, _⟩ => ⟨S320000x1, .i32⟩
  | .hbm, ⟨83, _⟩ => ⟨S320000x256, .f32⟩
  | .hbm, ⟨84, _⟩ => ⟨S320000x256, .f32⟩
  | .hbm, ⟨85, _⟩ => ⟨S320000x256, .f32⟩
  | .hbm, ⟨86, _⟩ => ⟨S_, .f32⟩
  | .hbm, ⟨87, _⟩ => ⟨S10000x256, .f32⟩
  | .hbm, ⟨88, _⟩ => ⟨S320000x1, .i32⟩
  | .hbm, ⟨89, _⟩ => ⟨S10000x256, .f32⟩
  | .hbm, ⟨90, _⟩ => ⟨S320000x1, .f32⟩
  | .hbm, ⟨91, _⟩ => ⟨S_, .i32⟩
  | .hbm, ⟨92, _⟩ => ⟨S320000, .i32⟩
  | .hbm, ⟨93, _⟩ => ⟨S320000, .i1⟩
  | .hbm, ⟨94, _⟩ => ⟨S_, .i32⟩
  | .hbm, ⟨95, _⟩ => ⟨S320000, .i32⟩
  | .hbm, ⟨96, _⟩ => ⟨S320000, .i32⟩
  | .hbm, ⟨97, _⟩ => ⟨S320000, .i32⟩
  | .hbm, ⟨98, _⟩ => ⟨S320000x1, .i32⟩
  | .hbm, ⟨99, _⟩ => ⟨S320000x256, .f32⟩
  | .hbm, ⟨100, _⟩ => ⟨S320000x256, .f32⟩
  | .hbm, ⟨101, _⟩ => ⟨S320000x256, .f32⟩
  | .hbm, ⟨102, _⟩ => ⟨S_, .f32⟩
  | .hbm, ⟨103, _⟩ => ⟨S10000x256, .f32⟩
  | .hbm, ⟨104, _⟩ => ⟨S320000x1, .i32⟩
  | .hbm, ⟨105, _⟩ => ⟨S10000x256, .f32⟩
  | .hbm, ⟨106, _⟩ => ⟨S10000x256, .f32⟩
  | .hbm, ⟨107, _⟩ => ⟨S10000x256, .f32⟩
  | .hbm, ⟨108, _⟩ => ⟨S_, .f32⟩
  | .hbm, ⟨109, _⟩ => ⟨S10000x256, .f32⟩
  | .hbm, ⟨110, _⟩ => ⟨S10000x256, .f32⟩
  | .hbm, ⟨111, _⟩ => ⟨S_, .f32⟩
  | .hbm, ⟨112, _⟩ => ⟨S10000x256, .f32⟩
  | .hbm, ⟨113, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_7 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_10 : Ref sig .tc := ⟨.hbm, 75, rfl⟩
abbrev main_v56 : Ref sig .tc := ⟨.hbm, 76, rfl⟩
abbrev main_v57 : Ref sig .tc := ⟨.hbm, 77, rfl⟩
abbrev main_c_11 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_13 : Ref sig .tc := ⟨.hbm, 91, rfl⟩
abbrev main_v69 : Ref sig .tc := ⟨.hbm, 92, rfl⟩
abbrev main_v70 : Ref sig .tc := ⟨.hbm, 93, rfl⟩
abbrev main_c_14 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_15 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_16 : Ref sig .tc := ⟨.hbm, 108, rfl⟩
abbrev main_v83 : Ref sig .tc := ⟨.hbm, 109, rfl⟩
abbrev main_v84 : Ref sig .tc := ⟨.hbm, 110, rfl⟩
abbrev main_call0_cst : Ref sig .tc := ⟨.hbm, 111, rfl⟩
abbrev main_call0_v0 : Ref sig .tc := ⟨.hbm, 112, rfl⟩
abbrev main_v85 : Ref sig .tc := ⟨.hbm, 113, rfl⟩

abbrev nD : Nat := 1
abbrev τ : Topo := Topo.v7x

variable {F : FTy → Type} [FloatOps F]

class Facts₀ : Prop where
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x256_0_1 : S320000x1.BroadcastsInDim S320000x256 (![0, 1] : Fin 2 → Fin S320000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

class Facts : Prop extends Facts₀ where

variable [Facts]
-- ==== Proof.BitsRegions.lean ====
/-
  The two kernel regions of the word-level program, each at a PARAMETER `V` (the TensorCore's buffer contents when
  the region is entered). Region 0 multiplies a 1000-row block of the node features by the whole 256 x 768 weight
  matrix; region 1 combines three 1000-row blocks pointwise. For each: a window's block at a grid point, what the body
  leaves in the output window's buffer (its one whole-buffer store of the body's payload of the loaded blocks), the
  body's triple, the pipeline's proof data and the body obligation at every point.
-/
import proofs.«111617_j71631464562989_1_alg».proof.Proof.Gen.Kernel.Launch
import proofs.«111617_j71631464562989_1_alg».proof.Proof.Gen.Kernel.Skeleton
import proofs.«111617_j71631464562989_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the matrix product, block of rows by block of rows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block of rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight matrix at every point: fetched at the first point, its
    block index never moves afterwards. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1000x256 := Rect.unit (s := S1000x256) ![0, 0] S1000x256.size inb_S1000x256_S1000x256_0_0
abbrev r0_1 : Rect S256x768 := Rect.unit (s := S256x768) ![0, 0] S256x768.size inb_S256x768_S256x768_0_0
abbrev r0_2 : Rect S1000x768 := Rect.unit (s := S1000x768) ![0, 0] S1000x768.size inb_S1000x768_S1000x768_0_0

/-- The product window's staging buffer after the body: one whole-buffer store of the product of the loaded blocks. -/
def out0_2 (x0 : Vec F S1000x256 .f32) (x1 : Vec F S256x768 .f32) : Vec F S1000x768 .f32 :=
  View.canon [⟨r0_2, k0_pay1 (View.ld x0 r0_0) (View.ld x1 r0_1)⟩]

theorem cover0_2 (p0 : Vec F S1000x768 .f32) (y : S1000x768.Idx) :
    ∃ pc ∈ ([⟨r0_2, p0⟩] : List (View.Piece (Elt F) S1000x768 .f32)), y ∈ pc.1.set :=
  View.cover_of_tiled [⟨r0_2, p0⟩] S1000x768.size (by rfl) y

set_option maxHeartbeats 1000000 in
/-- The product kernel on whole staging memrefs: the inputs' contents are kept, the output's buffer ends at `out0_2`. -/
theorem sound_kernel0 (c : Dev nD) (E : Set ℕ) (i : grid0.Coords) (arg1 : Memref sig .tc .vmem S1000x256 .f32) (harg1 : arg1.IsWhole) (arg2 : Memref sig .tc .vmem S256x768 .f32) (harg2 : arg2.IsWhole) (arg3 : Memref sig .tc .vmem S1000x768 .f32) (harg3 : arg3.IsWhole)
    (x0 : Vec F S1000x256 .f32) (x1 : Vec F S256x768 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Region 0's proof data on core `c`: the arrays as the region finds them; after the body each input's buffer at its
    block and the output's at the product of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # Region 1: the pointwise combination of three arrays, block of rows by block of rows -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1000x256 := Rect.unit (s := S1000x256) ![0, 0] S1000x256.size inb_S1000x256_S1000x256_0_0

/-- The result window's staging buffer after the body: one whole-buffer store of the combination of the loaded blocks. -/
def out1_3 (x0 x1 x2 : Vec F S1000x256 .f32) : Vec F S1000x256 .f32 :=
  View.canon [⟨r1_0, k1_pay1 (View.ld x0 r1_0) (View.ld x1 r1_0) (View.ld x2 r1_0)⟩]

theorem cover1_3 (p0 : Vec F S1000x256 .f32) (y : S1000x256.Idx) :
    ∃ pc ∈ ([⟨r1_0, p0⟩] : List (View.Piece (Elt F) S1000x256 .f32)), y ∈ pc.1.set :=
  View.cover_of_tiled [⟨r1_0, p0⟩] S1000x256.size (by rfl) y

set_option maxHeartbeats 1000000 in
/-- The combining kernel on whole staging memrefs: the inputs' contents are kept, the output's buffer ends at `out1_3`. -/
theorem sound_kernel1 (c : Dev nD) (E : Set ℕ) (i : grid1.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S1000x256 .f32) (harg4 : arg4.IsWhole)
    (x0 x1 x2 : Vec F S1000x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsRun.lean ====
/-
  The run of the word-level program: the buffer contents at each boundary of @main (the launch memory, then the
  concatenation of the three weight matrices, then region 0's product written back block by block, then the 99 host
  operations of the three sparse propagations, then region 1's combination written back), each argument array read
  back through that fold to its launch contents, every pipeline's proof data at its region's entry contents, a host
  segment per stretch and a region segment per kernel, and the launch over them: every weakly fair execution ends with
  every unscoped buffer at the last boundary's contents.
-/
import proofs.«111617_j71631464562989_1_alg».proof.Proof.BitsRegions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the concatenation (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the sparse propagations (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches write -/

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
set_option maxHeartbeats 4000000 in
theorem hostOps1_fresh : (hostOps1 : List (HloOp τ sig (Elt F))).Forall fun op => op.fresh = ∅ := by
  simp only [List.Forall]; repeat' constructor
abbrev hostOps1_W : List (Ref sig .tc) := [main_v2, main_v3, main_v4, main_v5, main_c, main_v6, main_v7, main_c_0, main_v8, main_v9, main_v10, main_v11, main_v12, main_v13, main_v14, main_cst, main_v15, main_v16, main_v17, main_v18, main_c_1, main_v19, main_v20, main_c_2, main_v21, main_v22, main_v23, main_v24, main_v25, main_v26, main_v27, main_cst_3, main_v28, main_v29, main_v30, main_v31, main_c_4, main_v32, main_v33, main_c_5, main_v34, main_v35, main_v36, main_v37, main_v38, main_v39, main_v40, main_cst_6, main_v41, main_v42, main_v43, main_v44, main_c_7, main_v45, main_v46, main_c_8, main_v47, main_v48, main_v49, main_v50, main_v51, main_v52, main_v53, main_cst_9, main_v54, main_v55, main_v56, main_v57, main_c_10, main_v58, main_v59, main_c_11, main_v60, main_v61, main_v62, main_v63, main_v64, main_v65, main_v66, main_cst_12, main_v67, main_v68, main_v69, main_v70, main_c_13, main_v71, main_v72, main_c_14, main_v73, main_v74, main_v75, main_v76, main_v77, main_v78, main_v79, main_cst_15, main_v80, main_v81, main_v82]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
set_option maxHeartbeats 4000000 in
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Kernel.Hand

end
-- ==== Proof.IdealRegions.lean ====
/-
  The two kernel regions of the idealized program, each at a PARAMETER `V` (the TensorCore's buffer contents when
  the region is entered). Region 0 multiplies a 1000-row block of the node features by the whole 256 x 768 weight
  matrix; region 1 combines three 1000-row blocks pointwise. For each: a window's block at a grid point, what the body
  leaves in the output window's buffer (its one whole-buffer store of the body's payload of the loaded blocks), the
  body's triple, the pipeline's proof data and the body obligation at every point.
-/
import proofs.«111617_j71631464562989_1_alg».proof.Proof.Gen.KernelIdeal.Launch
import proofs.«111617_j71631464562989_1_alg».proof.Proof.Gen.KernelIdeal.Skeleton
import proofs.«111617_j71631464562989_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Region 0: the matrix product, block of rows by block of rows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's staging buffer holds its block of rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight matrix at every point: fetched at the first point, its
    block index never moves afterwards. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1000x256 := Rect.unit (s := S1000x256) ![0, 0] S1000x256.size inb_S1000x256_S1000x256_0_0
abbrev r0_1 : Rect S256x768 := Rect.unit (s := S256x768) ![0, 0] S256x768.size inb_S256x768_S256x768_0_0
abbrev r0_2 : Rect S1000x768 := Rect.unit (s := S1000x768) ![0, 0] S1000x768.size inb_S1000x768_S1000x768_0_0

/-- The product window's staging buffer after the body: one whole-buffer store of the product of the loaded blocks. -/
def out0_2 (x0 : Vec F S1000x256 .f32) (x1 : Vec F S256x768 .f32) : Vec F S1000x768 .f32 :=
  View.canon [⟨r0_2, k0_pay1 (View.ld x0 r0_0) (View.ld x1 r0_1)⟩]

theorem cover0_2 (p0 : Vec F S1000x768 .f32) (y : S1000x768.Idx) :
    ∃ pc ∈ ([⟨r0_2, p0⟩] : List (View.Piece (Elt F) S1000x768 .f32)), y ∈ pc.1.set :=
  View.cover_of_tiled [⟨r0_2, p0⟩] S1000x768.size (by rfl) y

set_option maxHeartbeats 1000000 in
/-- The product kernel on whole staging memrefs: the inputs' contents are kept, the output's buffer ends at `out0_2`. -/
theorem sound_kernel0 (c : Dev nD) (E : Set ℕ) (i : grid0.Coords) (arg1 : Memref sig .tc .vmem S1000x256 .f32) (harg1 : arg1.IsWhole) (arg2 : Memref sig .tc .vmem S256x768 .f32) (harg2 : arg2.IsWhole) (arg3 : Memref sig .tc .vmem S1000x768 .f32) (harg3 : arg3.IsWhole)
    (x0 : Vec F S1000x256 .f32) (x1 : Vec F S256x768 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Region 0's proof data on core `c`: the arrays as the region finds them; after the body each input's buffer at its
    block and the output's at the product of the two blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! # Region 1: the pointwise combination of three arrays, block of rows by block of rows -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1000x256 := Rect.unit (s := S1000x256) ![0, 0] S1000x256.size inb_S1000x256_S1000x256_0_0

/-- The result window's staging buffer after the body: one whole-buffer store of the combination of the loaded blocks. -/
def out1_3 (x0 x1 x2 : Vec F S1000x256 .f32) : Vec F S1000x256 .f32 :=
  View.canon [⟨r1_0, k1_pay1 (View.ld x0 r1_0) (View.ld x1 r1_0) (View.ld x2 r1_0)⟩]

theorem cover1_3 (p0 : Vec F S1000x256 .f32) (y : S1000x256.Idx) :
    ∃ pc ∈ ([⟨r1_0, p0⟩] : List (View.Piece (Elt F) S1000x256 .f32)), y ∈ pc.1.set :=
  View.cover_of_tiled [⟨r1_0, p0⟩] S1000x256.size (by rfl) y

set_option maxHeartbeats 1000000 in
/-- The combining kernel on whole staging memrefs: the inputs' contents are kept, the output's buffer ends at `out1_3`. -/
theorem sound_kernel1 (c : Dev nD) (E : Set ℕ) (i : grid1.Coords) (arg1 : Memref sig .tc .vmem S1000x256 .f32) (harg1 : arg1.IsWhole) (arg2 : Memref sig .tc .vmem S1000x256 .f32) (harg2 : arg2.IsWhole) (arg3 : Memref sig .tc .vmem S1000x256 .f32) (harg3 : arg3.IsWhole) (arg4 : Memref sig .tc .vmem S1000x256 .f32) (harg4 : arg4.IsWhole)
    (x0 x1 x2 : Vec F S1000x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__combine_kernel i arg1 harg1 arg2 harg2 arg3 harg3 arg4 harg4) K := by
  simp only [cc1__combine_kernel_eq_skeleton]; unfold cc1__combine_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- Region 1's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealRun.lean ====
/-
  The run of the idealized program: the buffer contents at each boundary of @main (the launch memory, then the
  concatenation of the three weight matrices, then region 0's product written back block by block, then the 99 host
  operations of the three sparse propagations, then region 1's combination written back), each argument array read
  back through that fold to its launch contents, every pipeline's proof data at its region's entry contents, a host
  segment per stretch and a region segment per kernel, and the launch over them: every weakly fair execution ends with
  every unscoped buffer at the last boundary's contents.
-/
import proofs.«111617_j71631464562989_1_alg».proof.Proof.IdealRegions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the concatenation (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the sparse propagations (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## What the host stretches write -/

theorem hostOps0_fresh : (hostOps0 : List (HloOp τ sig (Elt F))).Forall fun op => op.fresh = ∅ := by
  simp only [List.Forall]; repeat' constructor
abbrev hostOps0_W : List (Ref sig .tc) := [main_v0]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
set_option maxHeartbeats 4000000 in
theorem hostOps1_fresh : (hostOps1 : List (HloOp τ sig (Elt F))).Forall fun op => op.fresh = ∅ := by
  simp only [List.Forall]; repeat' constructor
abbrev hostOps1_W : List (Ref sig .tc) := [main_v2, main_v3, main_v4, main_v5, main_c, main_v6, main_v7, main_c_0, main_v8, main_v9, main_v10, main_v11, main_v12, main_v13, main_v14, main_cst, main_v15, main_v16, main_v17, main_v18, main_c_1, main_v19, main_v20, main_c_2, main_v21, main_v22, main_v23, main_v24, main_v25, main_v26, main_v27, main_cst_3, main_v28, main_v29, main_v30, main_v31, main_c_4, main_v32, main_v33, main_c_5, main_v34, main_v35, main_v36, main_v37, main_v38, main_v39, main_v40, main_cst_6, main_v41, main_v42, main_v43, main_v44, main_c_7, main_v45, main_v46, main_c_8, main_v47, main_v48, main_v49, main_v50, main_v51, main_v52, main_v53, main_cst_9, main_v54, main_v55, main_v56, main_v57, main_c_10, main_v58, main_v59, main_c_11, main_v60, main_v61, main_v62, main_v63, main_v64, main_v65, main_v66, main_cst_12, main_v67, main_v68, main_v69, main_v70, main_c_13, main_v71, main_v72, main_c_14, main_v73, main_v74, main_v75, main_v76, main_v77, main_v78, main_v79, main_cst_15, main_v80, main_v81, main_v82]
set_option maxHeartbeats 4000000 in
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (r := main_arg0) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := W2_of_ne m ρ c main_arg2 (by decide)
    _ = W0 m ρ c (Proc.devRef .tc main_arg2) := StableHlo.after_of_writes_sub hostOps0 _ hostOps0_writes (r := main_arg2) (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`. Its arrays are split
    out of the unscoped buffers and put back at the exit contents; the generator register goes into the invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at the exit contents; the generator register goes into the invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
set_option maxHeartbeats 4000000 in
theorem main_run (c : Dev nD) : main (F := F) c = Pipeline.Seg.run (segs m ρ) := (main_chain c).trans (by chain_rfl)

set_option backward.isDefEq.respectTransparency.types false in
/-- Every weakly fair execution of @main from memory `m` with zero counters terminates, nothing faulting, and every
    unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Hand

end
-- ==== Proof.Spec.lean ====
/-
  The mathematics of the graph-convolution block, stated once over the argument arrays.

  * `matProd x w`: the matrix product, entry (p, q) = Σ over k < 256 of x(p, k) · w(k, q).
  * `spmm vals src dst h`: one sparse propagation A · h — the rows of h gathered at the (wrapped) source node of each
    edge, scaled by the edge's value, and added into the row of the edge's destination node. It is carried as one
    function of h: both programs apply the same sixteen host operations, and nothing here opens them.
  * `combine a b c`: entry by entry, max(((a + b) + c) · (1/3), 0).
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.GraphConv

open Idealize.ShloMosaic Idealize.ShloMosaic.ValueIdx

abbrev S10000x256 : Shape := ⟨2, ![10000, 256]⟩
abbrev S320000 : Shape := ⟨1, ![320000]⟩
abbrev S256x256 : Shape := ⟨2, ![256, 256]⟩
abbrev S256x768 : Shape := ⟨2, ![256, 768]⟩
abbrev S10000x768 : Shape := ⟨2, ![10000, 768]⟩
abbrev S320000x1 : Shape := ⟨2, ![320000, 1]⟩
abbrev S_ : Shape := ⟨0, ![]⟩
abbrev S320000x256 : Shape := ⟨2, ![320000, 256]⟩

/-- The matrix product of the node features with a weight matrix of `n` columns. -/
def matProd {n : ℕ} (x : FVec Ideal S10000x256 .f32) (w : FVec Ideal ⟨2, ![256, n]⟩ .f32) : FVec Ideal ⟨2, ![10000, n]⟩ .f32 :=
  fun i => ∑ k : Fin 256, x (ix2 (i 0) k) * w (ix2 k (i 1))

/-- Entry by entry, max(((a + b) + c) · (1/3), 0). -/
def combine (a b c : FVec Ideal S10000x256 .f32) : FVec Ideal S10000x256 .f32 :=
  fun i => max (((a i + b i) + c i) * ((1 / 3 : ℝ) : EReal)) 0

variable {F : FTy → Type} [FloatOps F]

/-- One sparse propagation A · h over the edge list (vals, src, dst), as the host computes it. -/
def spmm (hv : S320000.BroadcastsInDim S320000x1 (![0] : Fin 1 → Fin S320000x1.rank))
    (hz : S_.BroadcastsInDim S320000 (![] : Fin 0 → Fin S320000.rank))
    (hb : S320000x1.BroadcastsInDim S320000x256 (![0, 1] : Fin 2 → Fin S320000x256.rank))
    (hz2 : S_.BroadcastsInDim S10000x256 (![] : Fin 0 → Fin S10000x256.rank))
    (gd : GatherDims S10000x256 S320000x1 S320000x256) (sd : ScatterDims S10000x256 S320000x1 S320000x256)
    (vals : (⟨S320000, .f32⟩ : BufTy).Contents (Elt F)) (src dst : (⟨S320000, .i32⟩ : BufTy).Contents (Elt F))
    (h : (⟨S10000x256, .f32⟩ : BufTy).Contents (Elt F)) : (⟨S10000x256, .f32⟩ : BufTy).Contents (Elt F) :=
  Host.scatterAdd sd
    (broadcastInDim S10000x256 ![] hz2 (constant (F := F) S_ .f32 0x00000000#32))
    (broadcastInDim S320000x1 ![0] hv dst)
    (mulf (broadcastInDim S320000x256 ![0, 1] hb (broadcastInDim S320000x1 ![0] hv vals))
      (Host.gather gd h (broadcastInDim S320000x1 ![0] hv
        (select (cmpi .slt src (broadcastInDim S320000 ![] hz (constantI S_ 32 0#32)))
          (addi src (broadcastInDim S320000 ![] hz (constantI S_ 32 10000#32))) src))))

end Cert.GraphConv

end
-- ==== Proof.LibOuterDot.lean ====
/-
  Two readings at an index, for any sizes, at the ideal values.

  * A block u of shape [R, n] and a block x of shape [R, m], each given a unit axis, broadcast against each other to
    [R, n, m], multiplied and flattened to [R, n·m]: entry (p, k) is u(p, k / m) · x(p, k % m) — the row-wise
    Kronecker product.
  * A matrix product [M, K] × [K, N] into a zero accumulator: entry (p, q) is Σ over k < K of A(p, k) · B(k, q), a sum
    over Fin K, given where the dimension numbers send an output index and a contraction index.
-/
import Idealize.ShloMosaic.Lib.ValueIdx
import Idealize.ShloMosaic.Lib.Pipeline.Value
import Idealize.ShloMosaic.PureOps.Ideal.Laws

noncomputable section

open scoped BigOperators

namespace Cert.LibOuterDot

open Idealize.ShloMosaic Idealize.ShloMosaic.ValueIdx

/-- The row-wise Kronecker product read at (p, k): u at column k / m times x at column k % m. -/
theorem outer_flat_apply (R n m N : ℕ) (hn : 1 < n) (hm : 1 < m) (hN : N = n * m)
    (u : (⟨2, ![R, n]⟩ : Shape).Idx → EReal) (x : (⟨2, ![R, m]⟩ : Shape).Idx → EReal)
    (h1 : (⟨2, ![R, n]⟩ : Shape).ShapeCasts ⟨3, ![R, n, 1]⟩)
    (h2 : (⟨2, ![R, m]⟩ : Shape).ShapeCasts ⟨3, ![R, 1, m]⟩)
    (h3 : (⟨3, ![R, n, 1]⟩ : Shape).Broadcasts ⟨3, ![R, n, m]⟩)
    (h4 : (⟨3, ![R, 1, m]⟩ : Shape).Broadcasts ⟨3, ![R, n, m]⟩)
    (h5 : (⟨3, ![R, n, m]⟩ : Shape).ShapeCasts ⟨2, ![R, N]⟩)
    (p : Fin R) (k : Fin N) (a : Fin n) (b : Fin m) (ha : a.val = k.val / m) (hb : b.val = k.val % m) :
    shapeCast ⟨2, ![R, N]⟩ (mulf (F := Ideal) (φ := .f32)
        (broadcastTo ⟨3, ![R, n, m]⟩ (shapeCast ⟨3, ![R, n, 1]⟩ u h1) h3)
        (broadcastTo ⟨3, ![R, n, m]⟩ (shapeCast ⟨3, ![R, 1, m]⟩ x h2) h4)) h5 (ix2 p k)
      = u (ix2 p a) * x (ix2 p b) := by
  subst hN
  refine (shapeCast_apply _ h5 (ix2 p k) (ix3 p a b) ?_).trans ?_
  · rw [Shape.rowMajor_val_three, Shape.rowMajor_val_two]
    show (p.val * n + a.val) * m + b.val = p.val * (n * m) + k.val
    have e : k.val / m * m + k.val % m = k.val := Nat.div_add_mod' _ _
    rw [ha, hb, Nat.add_mul, Nat.mul_assoc, Nat.add_assoc, e]
  · rw [mulf_apply]
    congr 1
    · refine (broadcastTo_apply _ h3 (ix3 p a b) (ix3 p a (0 : Fin 1)) ?_).trans ?_
      · intro ax
        match ax with
        | ⟨0, _⟩ =>
          show p.val = if R = 1 then 0 else p.val
          split
          · have := p.isLt; omega
          · rfl
        | ⟨1, _⟩ =>
          show a.val = if n = 1 then 0 else a.val
          rw [if_neg (by omega)]
        | ⟨2, _⟩ => rfl
      · refine shapeCast_apply u h1 _ (ix2 p a) ?_
        rw [Shape.rowMajor_val_three, Shape.rowMajor_val_two]
        show p.val * n + a.val = (p.val * n + a.val) * 1 + 0
        omega
    · refine (broadcastTo_apply _ h4 (ix3 p a b) (ix3 p (0 : Fin 1) b) ?_).trans ?_
      · intro ax
        match ax with
        | ⟨0, _⟩ =>
          show p.val = if R = 1 then 0 else p.val
          split
          · have := p.isLt; omega
          · rfl
        | ⟨1, _⟩ => rfl
        | ⟨2, _⟩ =>
          show b.val = if m = 1 then 0 else b.val
          rw [if_neg (by omega)]
      · refine shapeCast_apply x h2 _ (ix2 p b) ?_
        rw [Shape.rowMajor_val_three, Shape.rowMajor_val_two]
        show p.val * m + b.val = (p.val * 1 + 0) * m + b.val
        rw [Nat.mul_one, Nat.add_zero]

/-- With no batch axes and one free axis a on the left, the left operand's index has the output's coordinate b there,
    b the first output axis. -/
theorem lhs_free_val {sl sr so : Shape} (d : DotDims sl sr so) (a : Fin sl.rank) (b : Fin so.rank)
    (hlb : d.lhsBatch = []) (hln : d.lhsNonContracting = [a]) (hb : b.val = 0) (j : so.Idx) (k : d.contr.Idx) :
    (d.lhsIdx j k a).val = (j b).val := by
  have hnb : a ∉ d.lhsBatch := by rw [hlb]; exact List.not_mem_nil
  have hmn : a ∈ d.lhsNonContracting := by rw [hln]; exact List.mem_singleton.mpr rfl
  unfold DotDims.lhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hb])

/-- With no batch axes, one free axis on the left and one free axis a on the right, the right operand's index has the
    output's coordinate b there, b the second output axis. -/
theorem rhs_free_val {sl sr so : Shape} (d : DotDims sl sr so) (a : Fin sr.rank) (b : Fin so.rank) (a' : Fin sl.rank)
    (hlb : d.lhsBatch = []) (hrb : d.rhsBatch = []) (hln : d.lhsNonContracting = [a']) (hrn : d.rhsNonContracting = [a])
    (hb : b.val = 1) (j : so.Idx) (k : d.contr.Idx) :
    (d.rhsIdx j k a).val = (j b).val := by
  have hnb : a ∉ d.rhsBatch := by rw [hrb]; exact List.not_mem_nil
  have hmn : a ∈ d.rhsNonContracting := by rw [hrn]; exact List.mem_singleton.mpr rfl
  unfold DotDims.rhsIdx
  rw [dif_neg hnb, dif_pos hmn]
  simp only [Fin.val_cast]
  have key : ∀ (p q : Nat) (hp : p < so.rank) (hq : q < so.rank), p = q → (j ⟨p, hp⟩).val = (j ⟨q, hq⟩).val :=
    fun p q hp hq h => by subst h; rfl
  exact key _ _ _ b.isLt (by simp [hlb, hln, hrn, hb])

/-- A matrix product into the zero accumulator read at (p, q), given where the dimension numbers send the indices:
    the sum over k < K of A(p, k) · B(k, q). -/
theorem matmul_zero_ix2_of {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (l0 : ∀ i q, (d.lhsIdx i q 0).val = (i 0).val) (l1 : ∀ i q, (d.lhsIdx i q 1).val = (q ⟨0, by omega⟩).val)
    (r0 : ∀ i q, (d.rhsIdx i q 0).val = (q ⟨0, by omega⟩).val) (r1 : ∀ i q, (d.rhsIdx i q 1).val = (i 1).val)
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

/-- A plain matrix product — left operand contracted on its second axis, right on its first, no batch axes — into
    the zero accumulator, read at (p, q): the sum over k < K of A(p, k) · B(k, q). -/
theorem matmul_zero_ix2 {M K N : ℕ} {φ₁ φ₂ : FTy}
    (d : DotDims ⟨2, ![M, K]⟩ ⟨2, ![K, N]⟩ ⟨2, ![M, N]⟩) (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂) (p : Fin M) (q : Fin N) :
    matmul d prec A B (constant ⟨2, ![M, N]⟩ .f32 0x00000000#32) (ix2 p q) = ∑ k : Fin K, A (ix2 p k) * B (ix2 k q) :=
  matmul_zero_ix2_of d hr hs
    (fun i q => lhs_free_val d 0 0 hlb hln rfl i q)
    (fun i q => d.lhsIdx_val_of_single hlc i q)
    (fun i q => d.rhsIdx_val_of_single hrc i q)
    (fun i q => rhs_free_val d 1 1 0 hlb hrb hln hrn rfl i q)
    prec A B p q

end Cert.LibOuterDot

end
-- ==== Proof.ProdValue.lean ====
/-
  Region 0's result array: the product of the node features with the concatenated weight matrix, entry by entry.
  Point t of the grid multiplies rows 1000 t … 1000 t + 999 of the features by the whole weight matrix and writes back
  rows 1000 t … 1000 t + 999 of the product; the ten blocks tile the array.
-/
import proofs.«111617_j71631464562989_1_alg».proof.Proof.IdealRegions
import proofs.«111617_j71631464562989_1_alg».proof.Proof.Spec
import proofs.«111617_j71631464562989_1_alg».proof.Proof.LibOuterDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Blocks

variable (V : (c : Dev nD) → (b : Ref sig .tc) → Buf (Elt Ideal) ((c : Thread nD τ).loc b))

/-- A whole-buffer rectangle's offsets, both zero, as the constant function. -/
private theorem wholeOff : (![0, 0] : Fin 2 → Nat) = fun _ => 0 := funext fun a => by fin_cases a <;> rfl

/-! ## One point's product block, entry by entry -/

/-- The body's payload at (p, q): a change of format is the identity on extended reals, a cast of a shape to itself
    moves nothing, and the zero accumulator adds nothing, so the entry is the sum over k < 256 of x0(p, k) · x1(k, q). -/
private theorem prodPay_apply (x0 : Vec Ideal S1000x256 .f32) (x1 : Vec Ideal S256x768 .f32) (p : Fin 1000) (q : Fin 768) :
    k0_pay1 (F := Ideal) x0 x1 (ix2 p q) = ∑ k : Fin 256, x0 (ix2 p k) * x1 (ix2 k q) := by
  unfold k0_pay1
  refine (Cert.LibOuterDot.matmul_zero_ix2 dot_S1000x256_S256x768_S1000x768_1_0_0_1_n_n (by rfl) (by rfl) rfl rfl rfl rfl rfl rfl none _ _ p q).trans ?_
  refine Finset.sum_congr rfl fun k _ => ?_
  rw [truncf_apply, truncf_apply, shapeCast_self]

/-- When x0 is rows 1000 n … 1000 n + 999 of x and x1 is all of w, the payload's entry (p, q) is the product's entry
    (1000 n + p, q): the same 256 products, summed in the same order. -/
private theorem prodPay_rows (x : FVec Ideal Cert.GraphConv.S10000x256 .f32) (w : FVec Ideal Cert.GraphConv.S256x768 .f32)
    (x0 : Vec Ideal S1000x256 .f32) (x1 : Vec Ideal S256x768 .f32) (n : ℕ)
    (h0 : ∀ (p : Fin 1000) (k : Fin 256) (r : Fin 10000), r.val = 1000 * n + p.val → x0 (ix2 p k) = x (ix2 r k))
    (h1 : ∀ (k : Fin 256) (q : Fin 768), x1 (ix2 k q) = w (ix2 k q))
    (p : Fin 1000) (q : Fin 768) (r : Fin 10000) (hr : r.val = 1000 * n + p.val) :
    k0_pay1 (F := Ideal) x0 x1 (ix2 p q) = Cert.GraphConv.matProd (n := 768) x w (ix2 r q) := by
  rw [prodPay_apply]
  show _ = ∑ k : Fin 256, x (ix2 r k) * w (ix2 k q)
  exact Finset.sum_congr rfl fun k _ => by rw [h0 p k r hr, h1 k q]

/-! ## The blocks the windows stage at a point -/

/-- Where the index maps send point t: the feature window and the product window to block row t, the weight window
    to its one block. -/
private theorem prodIndex_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point t is rows 1000 t … 1000 t + 999 of the features: a block's coordinate sits in
    the array at the block index times the block's extent plus the coordinate inside the block. -/
private theorem featBlk_apply (c : Dev nD) (t : Fin cfg0.N) (p : Fin 1000) (k : Fin 256) (r : Fin 10000)
    (hr : r.val = 1000 * t.val + p.val) :
    (iblk0 V c 0 t : Vec Ideal S1000x256 .f32) (ix2 p k) = (V c main_arg0 : S10000x256.Idx → EReal) (ix2 r k) := by
  obtain ⟨e0, e1, -⟩ := prodIndex_at t
  unfold iblk0
  rw [View.read_apply]
  show V c main_arg0 _ = V c main_arg0 _
  congr 1
  funext a
  apply Fin.ext
  match a with
  | ⟨0, _⟩ => show win0_0.index t (0 : Fin 2) * 1000 + 1 * p.val = r.val; rw [e0, hr]; omega
  | ⟨1, _⟩ => show win0_0.index t (1 : Fin 2) * 256 + 1 * k.val = k.val; rw [e1]; omega

/-- The weight window's block is the whole weight matrix at every point. -/
private theorem wtBlk_apply (c : Dev nD) (t : Fin cfg0.N) (k : Fin 256) (q : Fin 768) :
    (iblk0 V c 1 t : Vec Ideal S256x768 .f32) (ix2 k q) = (V c main_v0 : S256x768.Idx → EReal) (ix2 k q) := by
  obtain ⟨-, -, e2, e3, -⟩ := prodIndex_at t
  unfold iblk0
  rw [View.read_apply]
  show V c main_v0 _ = V c main_v0 _
  congr 1
  funext a
  apply Fin.ext
  match a with
  | ⟨0, _⟩ => show win0_1.index t (0 : Fin 2) * 256 + 1 * k.val = k.val; rw [e2]; omega
  | ⟨1, _⟩ => show win0_1.index t (1 : Fin 2) * 768 + 1 * q.val = q.val; rw [e3]; omega

/-! ## From the ten blocks to the array -/

/-- What point t writes back is block t of the product: its rows 1000 t … 1000 t + 999, all 768 columns. The body's
    one whole-buffer store leaves the payload of the two loaded blocks; entry (p, q) of it is the product's entry
    (1000 t + p, q), which is where the product window's block t has its entry (p, q). -/
private theorem prodFlushed_eq (c : Dev nD) (t : Fin cfg0.N) :
    (dat0 (F := Ideal) V c).flushed 2 t
      = ((cfg0.win 2).blk t).view.read (Elt Ideal) (Cert.GraphConv.matProd (n := 768) (V c main_arg0) (V c main_v0)) := by
  show (cfg0.win 2).cut (grid0.coords t) ((dat0 V c).after 2 t) = _
  rw [after0_2]
  unfold out0_2
  rw [View.canon_unit_zero wholeOff]
  simp only [View.ld_unit_zero (S := S1000x256) wholeOff, View.ld_unit_zero (S := S256x768) wholeOff]
  obtain ⟨-, -, -, -, e4, e5⟩ := prodIndex_at t
  funext j
  obtain ⟨p, q, rfl⟩ : ∃ (p : Fin 1000) (q : Fin 768), j = ix2 p q := ⟨j 0, j 1, @eq_ix2 1000 768 j⟩
  rw [View.read_apply]
  have hN : cfg0.N = 10 := N_0
  have hr : 1000 * t.val + p.val < 10000 := by have := t.isLt; have := p.isLt; omega
  refine (prodPay_rows (V c main_arg0) (V c main_v0) (iblk0 V c 0 t) (iblk0 V c 1 t) t.val
    (fun p k r hr => featBlk_apply V c t p k r hr) (fun k q => wtBlk_apply V c t k q) p q ⟨1000 * t.val + p.val, hr⟩ rfl).trans ?_
  show Cert.GraphConv.matProd (n := 768) (V c main_arg0) (V c main_v0) _ = Cert.GraphConv.matProd (n := 768) (V c main_arg0) (V c main_v0) _
  congr 1
  funext a
  apply Fin.ext
  match a with
  | ⟨0, _⟩ => show 1000 * t.val + p.val = win0_2.index t (0 : Fin 2) * 1000 + 1 * p.val; rw [e4]; omega
  | ⟨1, _⟩ => show q.val = win0_2.index t (1 : Fin 2) * 768 + 1 * q.val; rw [e5]; omega

/-- An index of the product array is in point t's block exactly when, on each axis, its coordinate is in the block's
    range there: from the block index times the block's extent, for one extent. -/
private theorem mem_prodBlk (t : Fin cfg0.N) (i : S10000x768.Idx) :
    i ∈ ((cfg0.win 2).blk t).view.set
      ↔ ∀ a : Fin 2, win0_2.index t a * S1000x768.size a ≤ (i a).val ∧ (i a).val < win0_2.index t a * S1000x768.size a + S1000x768.size a := by
  show i ∈ ((View.whole main_v1).slice (win0_2.rect t)).set ↔ _
  rw [View.set_slice_whole, Rect.mem_set_unit]
  exact Iff.rfl

/-- The ten blocks tile the product array: row r is in the block of point r / 1000, and every point writes its block
    back. -/
private theorem prodCovered (i : S10000x768.Idx) :
    ∃ t : Fin cfg0.N, (cfg0.win 2).flush t = true ∧ i ∈ ((cfg0.win 2).blk t).view.set := by
  have hN : cfg0.N = 10 := N_0
  have hi0 : (i 0).val < 10000 := (i 0).isLt
  have hi1 : (i 1).val < 768 := (i 1).isLt
  obtain ⟨t, ht⟩ : ∃ t : Fin cfg0.N, t.val = (i 0).val / 1000 := ⟨⟨(i 0).val / 1000, by omega⟩, rfl⟩
  obtain ⟨-, -, -, -, e4, e5⟩ := prodIndex_at t
  refine ⟨t, flush0_2 t, ?_⟩
  rw [mem_prodBlk]
  intro a
  match a with
  | ⟨0, _⟩ =>
    show win0_2.index t (0 : Fin 2) * 1000 ≤ (i 0).val ∧ (i 0).val < win0_2.index t (0 : Fin 2) * 1000 + 1000
    rw [e4, ht]; omega
  | ⟨1, _⟩ =>
    show win0_2.index t (1 : Fin 2) * 768 ≤ (i 1).val ∧ (i 1).val < win0_2.index t (1 : Fin 2) * 768 + 768
    rw [e5]; omega

end Blocks

/-- After region 0, its result array holds the matrix product of the array window 0 stages (the node features) with the
    array window 1 stages (the concatenated weights), whatever contents `V` the region is entered with. -/
theorem prod_arr (V : (c : Dev nD) → (b : Ref sig .tc) → Buf (Elt Ideal) ((c : Thread nD τ).loc b)) (c : Dev nD) :
    ((dat0 (F := Ideal) V c).arrAt 2 cfg0.N : S10000x768.Idx → EReal)
      = Cert.GraphConv.matProd (n := 768) (V c main_arg0) (V c main_v0) :=
  (dat0 (F := Ideal) V c).arrAt_eq_of_cover 2 (Cert.GraphConv.matProd (n := 768) (V c main_arg0) (V c main_v0))
    (fun t _ => prodFlushed_eq V c t) prodCovered

end Cert.KernelIdeal.Hand

end
-- ==== Proof.CombValue.lean ====
/-
  Region 1's result array: entry by entry, max(((a + b) + c) · (1/3), 0) of the three arrays its input windows stage.
  Point t of the grid combines rows 1000 t … 1000 t + 999; the ten blocks tile the array.
-/
import proofs.«111617_j71631464562989_1_alg».proof.Proof.IdealRegions
import proofs.«111617_j71631464562989_1_alg».proof.Proof.Spec
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The combination of three blocks, entry by entry -/

/-- The zero offsets of a whole-block rectangle, as the constant function. -/
private theorem zero_offsets : (![0, 0] : Fin 2 → Nat) = fun _ => 0 := funext fun a => by fin_cases a <;> rfl

/-- The kernel's named factor denotes one third, by the certificate's table. -/
private theorem third_eq : Named.named (F := Ideal) κ "inv_3" (φ := .f32) 0x3EAAAAAB#32 = ((1 / 3 : ℝ) : EReal) :=
  IdealRules.named_const.ideal_named_scalar _ _ _ _ rfl

/-- The body's payload at an entry of the block: the three entries added left to right, times one third, and the
    maximum of that with zero. -/
private theorem combined_entry (x0 x1 x2 : Vec Ideal S1000x256 .f32) (j : S1000x256.Idx) :
    k1_pay1 x0 x1 x2 j = max (((x0 j + x1 j) + x2 j) * ((1 / 3 : ℝ) : EReal)) 0 := by
  unfold k1_pay1
  simp only [shapeCast_self]
  show max ((x0 j + x1 j + x2 j) * Named.named (F := Ideal) κ "inv_3" (φ := .f32) 0x3EAAAAAB#32) (Ideal.ofBits .f32 0x00000000#32) = _
  rw [third_eq, Ideal.ofBits_zero_f32]

/-- The same with each block's entry named as an entry of its array: the combination of the three arrays there. -/
private theorem combined_entry_of (a b d : FVec Ideal S10000x256 .f32) (x0 x1 x2 : Vec Ideal S1000x256 .f32)
    (j : S1000x256.Idx) (i : S10000x256.Idx) (h0 : x0 j = a i) (h1 : x1 j = b i) (h2 : x2 j = d i) :
    k1_pay1 x0 x1 x2 j = Cert.GraphConv.combine a b d i := by
  rw [combined_entry, h0, h1, h2]
  rfl

/-! ## What a grid point writes back -/

/-- The index maps at each of the ten points: every window's block at point `t` is block (t, 0) of its array, so the
    three input blocks and the result block lie over the same rows 1000 t … 1000 t + 999 and all 256 columns. -/
private theorem block_index : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = win1_3.index t (1 : Fin 2)
    ∧ win1_2.index t (0 : Fin 2) = win1_3.index t (0 : Fin 2) ∧ win1_2.index t (1 : Fin 2) = win1_3.index t (1 : Fin 2)
    ∧ win1_3.index t (0 : Fin 2) = t.val ∧ win1_3.index t (1 : Fin 2) = 0 :=
  (by decide +kernel : ∀ t : Fin grid1.N, _)

/-- Point `t` writes back block `t` of the combination of the three arrays as the region finds them. -/
private theorem written_block (V : (c : Dev nD) → (b : Ref sig .tc) → Buf (Elt Ideal) ((c : Thread nD τ).loc b)) (c : Dev nD)
    (t : Fin cfg1.N) :
    (dat1 (F := Ideal) V c).flushed 3 t
      = ((cfg1.win 3).blk t).view.read (Elt Ideal) (Cert.GraphConv.combine (V c main_v17) (V c main_v43) (V c main_v82)) := by
  show (cfg1.win 3).cut (grid1.coords t) ((dat1 V c).after 3 t) = _
  rw [after1_3]
  unfold out1_3
  rw [View.canon_unit_zero zero_offsets]
  simp only [View.ld_unit_zero (S := S1000x256) zero_offsets]
  obtain ⟨e00, e01, e10, e11, e20, e21, -, -⟩ := block_index t
  funext j
  refine combined_entry_of (V c main_v17) (V c main_v43) (V c main_v82) (iblk1 V c 0 t) (iblk1 V c 1 t) (iblk1 V c 2 t) j
    (((cfg1.win 3).blk t).view.emb j) ?_ ?_ ?_
  · show V c main_v17 (((cfg1.win 0).blk t).view.emb j) = V c main_v17 (((cfg1.win 3).blk t).view.emb j)
    refine congrArg (V c main_v17) (funext fun a => Fin.ext ?_)
    match a with
    | ⟨0, _⟩ => show win1_0.index t (0 : Fin 2) * 1000 + 1 * (j 0).val = win1_3.index t (0 : Fin 2) * 1000 + 1 * (j 0).val; rw [e00]
    | ⟨1, _⟩ => show win1_0.index t (1 : Fin 2) * 256 + 1 * (j 1).val = win1_3.index t (1 : Fin 2) * 256 + 1 * (j 1).val; rw [e01]
  · show V c main_v43 (((cfg1.win 1).blk t).view.emb j) = V c main_v43 (((cfg1.win 3).blk t).view.emb j)
    refine congrArg (V c main_v43) (funext fun a => Fin.ext ?_)
    match a with
    | ⟨0, _⟩ => show win1_1.index t (0 : Fin 2) * 1000 + 1 * (j 0).val = win1_3.index t (0 : Fin 2) * 1000 + 1 * (j 0).val; rw [e10]
    | ⟨1, _⟩ => show win1_1.index t (1 : Fin 2) * 256 + 1 * (j 1).val = win1_3.index t (1 : Fin 2) * 256 + 1 * (j 1).val; rw [e11]
  · show V c main_v82 (((cfg1.win 2).blk t).view.emb j) = V c main_v82 (((cfg1.win 3).blk t).view.emb j)
    refine congrArg (V c main_v82) (funext fun a => Fin.ext ?_)
    match a with
    | ⟨0, _⟩ => show win1_2.index t (0 : Fin 2) * 1000 + 1 * (j 0).val = win1_3.index t (0 : Fin 2) * 1000 + 1 * (j 0).val; rw [e20]
    | ⟨1, _⟩ => show win1_2.index t (1 : Fin 2) * 256 + 1 * (j 1).val = win1_3.index t (1 : Fin 2) * 256 + 1 * (j 1).val; rw [e21]

/-! ## The ten blocks tile the array -/

/-- An entry of the array lies in point `t`'s block iff each of its coordinates lies in the block's range on that axis. -/
private theorem mem_block (t : Fin cfg1.N) (i : S10000x256.Idx) :
    i ∈ ((cfg1.win 3).blk t).view.set
      ↔ ∀ a : Fin 2, win1_3.index t a * S1000x256.size a ≤ (i a).val ∧ (i a).val < win1_3.index t a * S1000x256.size a + S1000x256.size a := by
  show i ∈ ((View.whole main_v83).slice (win1_3.rect t)).set ↔ _
  rw [View.set_slice_whole, Rect.mem_set_unit]
  exact Iff.rfl

/-- Every entry is written back by some point: row r lies in the block of point r / 1000, which spans all 256 columns. -/
private theorem rows_covered (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  have hN : cfg1.N = 10 := N_1
  obtain ⟨t, ht⟩ : ∃ t : Fin cfg1.N, t.val = (i 0).val / 1000 := ⟨⟨(i 0).val / 1000, by rw [hN]; omega⟩, rfl⟩
  obtain ⟨-, -, -, -, -, -, q0, q1⟩ := block_index t
  refine ⟨t, flush1_3 t, ?_⟩
  rw [mem_block]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 256 ≤ (i 1).val ∧ (i 1).val < win1_3.index t (1 : Fin 2) * 256 + 256; omega

/-- After region 1, its result array holds the pointwise combination of the three arrays it stages, whatever contents
    `V` the region is entered with. The kernel's factor is the named constant, which denotes 1/3. -/
theorem comb_arr (V : (c : Dev nD) → (b : Ref sig .tc) → Buf (Elt Ideal) ((c : Thread nD τ).loc b)) (c : Dev nD) :
    ((dat1 (F := Ideal) V c).arrAt 3 cfg1.N : S10000x256.Idx → EReal)
      = Cert.GraphConv.combine (V c main_v17) (V c main_v43) (V c main_v82) :=
  (dat1 (F := Ideal) V c).arrAt_eq_of_cover 3 (Cert.GraphConv.combine (V c main_v17) (V c main_v43) (V c main_v82))
    (fun t _ => written_block V c t) rows_covered

end Cert.KernelIdeal.Hand

end
-- ==== Proof.HostChain.lean ====
/-
  The host stretches of the idealized program read as values. Before region 0 the three weight matrices are
  concatenated along the columns. Between the regions the 99 host operations cut the product into its three column
  bands and propagate them: band 0 once, band 1 twice, band 2 three times through the sparse matrix (vals, src, dst);
  the three results are what region 1's input windows stage. No host operation writes an argument.
-/
import proofs.«111617_j71631464562989_1_alg».proof.Proof.IdealRun
import proofs.«111617_j71631464562989_1_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F] [Named F]
variable (m : (ℓ : Loc nD τ sig) → Buf (Elt F) ℓ) (ρ : Dev nD → PrngReg)

/-- One sparse propagation over the program's edge list, with the program's own shape records. -/
abbrev prop1 (c : Dev nD) (h : (⟨S10000x256, .f32⟩ : BufTy).Contents (Elt F)) : (⟨S10000x256, .f32⟩ : BufTy).Contents (Elt F) :=
  Cert.GraphConv.spmm Facts₀.bcast_S320000_S320000x1_0 Facts₀.bcast_S_S320000 Facts₀.bcast_S320000x1_S320000x256_0_1 Facts₀.bcast_S_S10000x256
    gather_S10000x256_S320000x1_S320000x256_1_0_n_n_0_1_1256 scatter_S10000x256_S320000x1_S320000x256_1_0_0_1
    (m ((c : Thread nD τ).loc main_arg1)) (m ((c : Thread nD τ).loc main_arg5)) (m ((c : Thread nD τ).loc main_arg6)) h

/-- Column band `j` of region 0's result array as region 0 leaves it. -/
abbrev band0 (c : Dev nD) : (⟨S10000x256, .f32⟩ : BufTy).Contents (Elt F) :=
  extractStridedSlice S10000x256 ![0, 0] (W2 m ρ c (Proc.devRef .tc main_v1)) Facts₀.slices_S10000x768_S10000x256_0_0
abbrev band1 (c : Dev nD) : (⟨S10000x256, .f32⟩ : BufTy).Contents (Elt F) :=
  extractStridedSlice S10000x256 ![0, 256] (W2 m ρ c (Proc.devRef .tc main_v1)) Facts₀.slices_S10000x768_S10000x256_0_256
abbrev band2 (c : Dev nD) : (⟨S10000x256, .f32⟩ : BufTy).Contents (Elt F) :=
  extractStridedSlice S10000x256 ![0, 512] (W2 m ρ c (Proc.devRef .tc main_v1)) Facts₀.slices_S10000x768_S10000x256_0_512

/-! ### The 99 host operations over arbitrary contents

Read at the three references region 1 stages, the stretch is the slice of `main_v1` pushed through the sixteen
operations of one sparse propagation once, twice, three times; the edge list is whatever the contents hold at
`main_arg1`, `main_arg5`, `main_arg6`. -/

/-- One sparse propagation with the edge list read from contents `Wv`. -/
private abbrev propV (Wv : Valuation τ sig (Elt F)) (h : (⟨S10000x256, .f32⟩ : BufTy).Contents (Elt F)) : (⟨S10000x256, .f32⟩ : BufTy).Contents (Elt F) :=
  Cert.GraphConv.spmm Facts₀.bcast_S320000_S320000x1_0 Facts₀.bcast_S_S320000 Facts₀.bcast_S320000x1_S320000x256_0_1 Facts₀.bcast_S_S10000x256
    gather_S10000x256_S320000x1_S320000x256_1_0_n_n_0_1_1256 scatter_S10000x256_S320000x1_S320000x256_1_0_0_1
    (Wv (Proc.devRef .tc main_arg1)) (Wv (Proc.devRef .tc main_arg5)) (Wv (Proc.devRef .tc main_arg6)) h

set_option maxHeartbeats 40000000 in
/-- Band 0 through the first copy of the sixteen operations: the composed term is the propagation's body. -/
private theorem after1_v17 (Wv : Valuation τ sig (Elt F)) :
    StableHlo.after hostOps1 Wv (Proc.devRef .tc main_v17)
      = propV Wv (extractStridedSlice S10000x256 ![0, 0] (Wv (Proc.devRef .tc main_v1)) Facts₀.slices_S10000x768_S10000x256_0_0) := by
  after_results_simp
  rfl

set_option maxHeartbeats 40000000 in
/-- Band 1 through the second and third copies, the third reading the second's result. -/
private theorem after1_v43 (Wv : Valuation τ sig (Elt F)) :
    StableHlo.after hostOps1 Wv (Proc.devRef .tc main_v43)
      = propV Wv (propV Wv (extractStridedSlice S10000x256 ![0, 256] (Wv (Proc.devRef .tc main_v1)) Facts₀.slices_S10000x768_S10000x256_0_256)) := by
  after_results_simp
  rfl

set_option maxHeartbeats 40000000 in
/-- Band 2 through the last three copies, each reading the one before. -/
private theorem after1_v82 (Wv : Valuation τ sig (Elt F)) :
    StableHlo.after hostOps1 Wv (Proc.devRef .tc main_v82)
      = propV Wv (propV Wv (propV Wv (extractStridedSlice S10000x256 ![0, 512] (Wv (Proc.devRef .tc main_v1)) Facts₀.slices_S10000x768_S10000x256_0_512))) := by
  after_results_simp
  rfl

/-! ### The edge list at region 0's exit is the launched one

Region 0 writes none of the three edge arrays and neither does the concatenation before it. -/

private theorem W2_main_arg1 (c : Dev nD) : W2 m ρ c (Proc.devRef .tc main_arg1) = m ((c : Thread nD τ).loc main_arg1) :=
  (W2_of_ne m ρ c main_arg1 (by decide)).trans (StableHlo.after_of_writes_sub hostOps0 _ hostOps0_writes (r := main_arg1) (by decide))
private theorem W2_main_arg5 (c : Dev nD) : W2 m ρ c (Proc.devRef .tc main_arg5) = m ((c : Thread nD τ).loc main_arg5) :=
  (W2_of_ne m ρ c main_arg5 (by decide)).trans (StableHlo.after_of_writes_sub hostOps0 _ hostOps0_writes (r := main_arg5) (by decide))
private theorem W2_main_arg6 (c : Dev nD) : W2 m ρ c (Proc.devRef .tc main_arg6) = m ((c : Thread nD τ).loc main_arg6) :=
  (W2_of_ne m ρ c main_arg6 (by decide)).trans (StableHlo.after_of_writes_sub hostOps0 _ hostOps0_writes (r := main_arg6) (by decide))

/-- So a propagation over region 0's exit contents is the propagation over the launched edge list. -/
private theorem propV_W2 (c : Dev nD) (h : (⟨S10000x256, .f32⟩ : BufTy).Contents (Elt F)) : propV (W2 m ρ c) h = prop1 m c h := by
  show Cert.GraphConv.spmm _ _ _ _ _ _ (W2 m ρ c (Proc.devRef .tc main_arg1)) (W2 m ρ c (Proc.devRef .tc main_arg5)) (W2 m ρ c (Proc.devRef .tc main_arg6)) h = _
  rw [W2_main_arg1 m ρ c, W2_main_arg5 m ρ c, W2_main_arg6 m ρ c]

/-- Region 0 is entered with the node features as launched -/
theorem W1_main_arg0 (c : Dev nD) : W1 m ρ c (Proc.devRef .tc main_arg0) = m ((c : Thread nD τ).loc main_arg0) :=
  StableHlo.after_of_writes_sub hostOps0 _ hostOps0_writes (r := main_arg0) (by decide)

/-- and with the three weight matrices side by side. -/
theorem W1_main_v0 (c : Dev nD) : W1 m ρ c (Proc.devRef .tc main_v0)
    = concatenate S256x768 1 [⟨S256x256, (m ((c : Thread nD τ).loc main_arg2))⟩, ⟨S256x256, (m ((c : Thread nD τ).loc main_arg3))⟩, ⟨S256x256, (m ((c : Thread nD τ).loc main_arg4))⟩] Facts₀.concatenates_S256x256_S256x256_S256x256_S256x768_d1 := by
  show StableHlo.after hostOps0 _ (Proc.devRef .tc main_v0) = _
  after_results
  rfl

/-- Region 1's first operand: band 0 propagated once. -/
theorem W3_main_v17 (c : Dev nD) : W3 m ρ c (Proc.devRef .tc main_v17) = prop1 m c (band0 m ρ c) :=
  (after1_v17 (W2 m ρ c)).trans (propV_W2 m ρ c _)

/-- Region 1's second operand: band 1 propagated twice. -/
theorem W3_main_v43 (c : Dev nD) : W3 m ρ c (Proc.devRef .tc main_v43) = prop1 m c (prop1 m c (band1 m ρ c)) :=
  ((after1_v43 (W2 m ρ c)).trans (congrArg (propV (W2 m ρ c)) (propV_W2 m ρ c _))).trans (propV_W2 m ρ c _)

/-- Region 1's third operand: band 2 propagated three times. -/
theorem W3_main_v82 (c : Dev nD) : W3 m ρ c (Proc.devRef .tc main_v82) = prop1 m c (prop1 m c (prop1 m c (band2 m ρ c))) :=
  (((after1_v82 (W2 m ρ c)).trans (congrArg (fun h => propV (W2 m ρ c) (propV (W2 m ρ c) h)) (propV_W2 m ρ c _))).trans
    (congrArg (propV (W2 m ρ c)) (propV_W2 m ρ c _))).trans (propV_W2 m ρ c _)

end Cert.KernelIdeal.Hand

end
-- ==== Proof.Algebra.lean ====
/-
  The two laws that join the kernel's arithmetic to the reference's, on the extended reals.

  * Multiplying by the three weight matrices side by side and then cutting the product into its three column bands
    is multiplying by each matrix: entry (p, q) of band j is Σ over k of x(p, k) · [W0 | W1 | W2](k, 256 j + q), and
    column 256 j + q of the concatenation is column q of W_j. The sums agree term by term; nothing needs finiteness.
  * Dividing by 3 is multiplying by 1/3 on every extended real, so max(((a + b) + c) · (1/3), 0) is the reference's
    max(((a + b) + c) / 3, 0).
-/
import proofs.«111617_j71631464562989_1_alg».proof.Proof.Spec
import proofs.«111617_j71631464562989_1_alg».proof.Proof.LibOuterDot
import Idealize.ShloMosaic.Lib.ValueLayout

noncomputable section

open scoped BigOperators

namespace Cert.GraphConv

open Idealize.ShloMosaic Idealize.ShloMosaic.ValueIdx

/-! ## The reference's product read at an index -/

/-- Contracting the left operand's second axis alone, the contraction shape has one axis. -/
private theorem contr_rank (d : DotDims S10000x256 S256x256 S10000x256) (hlc : d.lhsContracting = [1]) : d.contr.rank = 1 := by
  rw [d.rank_contr, hlc]; rfl

/-- The sizes a list of left axes contracts over, when the list is the second axis alone: the one size 256. -/
private theorem ofList_size (l : List (Fin S10000x256.rank)) (hl : l = [1])
    (h0 : 0 < (Shape.ofList (l.map S10000x256.size)).rank) : (Shape.ofList (l.map S10000x256.size)).size ⟨0, h0⟩ = 256 := by
  subst hl; rfl

/-- … and that axis has the 256 positions of the left operand's second axis. -/
private theorem contr_size (d : DotDims S10000x256 S256x256 S10000x256) (hlc : d.lhsContracting = [1]) :
    d.contr.size ⟨0, by rw [contr_rank d hlc]; exact Nat.one_pos⟩ = 256 :=
  ofList_size d.lhsContracting hlc _

/-- The reference's product read at (p, q): the sum over k < 256 of x(p, k) · w(k, q). -/
private theorem dot_apply (d : DotDims S10000x256 S256x256 S10000x256) (hlc : d.lhsContracting = [1]) (hrc : d.rhsContracting = [0])
    (hln : d.lhsNonContracting = [0]) (hrn : d.rhsNonContracting = [1]) (hlb : d.lhsBatch = []) (hrb : d.rhsBatch = [])
    (x : FVec Ideal S10000x256 .f32) (w : FVec Ideal S256x256 .f32) (p : Fin 10000) (q : Fin 256) :
    Host.dotGeneral d none x w (ix2 p q) = ∑ k : Fin 256, x (ix2 p k) * w (ix2 k q) := by
  have hr := contr_rank d hlc
  have hs := contr_size d hlc
  show FloatOps.dotGeneral d none _ x w (ix2 p q) = _
  rw [Ideal.dotGeneral_apply, ← Equiv.sum_comp (contrEquiv1 d 256 hr hs).symm]
  refine Finset.sum_congr rfl fun k _ => ?_
  have hk := contrEquiv1_symm_val d 256 hr hs k
  have el : d.lhsIdx (ix2 p q) ((contrEquiv1 d 256 hr hs).symm k) = ix2 p k := funext fun a => Fin.ext (by
    match a with
    | ⟨0, _⟩ => exact Cert.LibOuterDot.lhs_free_val d 0 0 hlb hln rfl _ _
    | ⟨1, _⟩ => exact (d.lhsIdx_val_of_single hlc _ _).trans hk)
  have er : d.rhsIdx (ix2 p q) ((contrEquiv1 d 256 hr hs).symm k) = ix2 k q := funext fun a => Fin.ext (by
    match a with
    | ⟨0, _⟩ => exact (d.rhsIdx_val_of_single hrc _ _).trans hk
    | ⟨1, _⟩ => exact Cert.LibOuterDot.rhs_free_val d 1 1 0 hlb hrb hln hrn rfl _ _)
  rw [el, er]

/-! ## A column band of a product is the product with the band's columns -/

/-- If columns o, …, o + 255 of a 768-column matrix are the columns of w, the band of the product at those columns is
    the product with w: at (p, q) both are the sum over k of x(p, k) · w(k, q). -/
private theorem band_eq_dot (o : ℕ) (ho : o + 256 ≤ 768) (d : DotDims S10000x256 S256x256 S10000x256)
    (hlc : d.lhsContracting = [1]) (hrc : d.rhsContracting = [0]) (hln : d.lhsNonContracting = [0])
    (hrn : d.rhsNonContracting = [1]) (hlb : d.lhsBatch = []) (hrb : d.rhsBatch = [])
    (hs : S10000x768.Slices ![0, o] S10000x256) (x : FVec Ideal S10000x256 .f32) (wc : FVec Ideal S256x768 .f32)
    (w : FVec Ideal S256x256 .f32)
    (hw : ∀ (k q : Fin 256), wc (ix2 k (⟨o + q.val, by have := q.isLt; omega⟩ : Fin 768)) = w (ix2 k q)) :
    extractStridedSlice S10000x256 ![0, o] (matProd (n := 768) x wc) hs = Host.dotGeneral d none x w := by
  funext i
  obtain ⟨p, q, rfl⟩ : ∃ (p : Fin 10000) (q : Fin 256), i = ix2 p q := ⟨i 0, i 1, eq_ix2 i⟩
  refine (extractStridedSlice_apply _ _ hs (ix2 p q)
    (ix2 p (⟨o + q.val, by have := q.isLt; omega⟩ : Fin 768)) ?_).trans ?_
  · intro a
    match a with
    | ⟨0, _⟩ => show p.val = 0 + p.val; omega
    | ⟨1, _⟩ => rfl
  · rw [dot_apply d hlc hrc hln hrn hlb hrb x w p q]
    show ∑ k : Fin 256, x (ix2 p k) * wc (ix2 k (⟨o + q.val, _⟩ : Fin 768)) = _
    exact Finset.sum_congr rfl fun k _ => by rw [hw k q]

/-! ## The columns of the three matrices side by side -/

/-- Column q of the concatenation is column q of the first matrix. -/
private theorem concat_col0 (hc : Shape.Concatenates [S256x256, S256x256, S256x256] S256x768 1)
    (w0 w1 w2 : FVec Ideal S256x256 .f32) (k q : Fin 256) :
    concatenate S256x768 1 [⟨S256x256, w0⟩, ⟨S256x256, w1⟩, ⟨S256x256, w2⟩] hc
      (ix2 k (⟨0 + q.val, by have := q.isLt; omega⟩ : Fin 768)) = w0 (ix2 k q) := by
  refine concatenate_apply_piece (1 : Fin S256x768.rank) [⟨S256x256, w0⟩, ⟨S256x256, w1⟩, ⟨S256x256, w2⟩] hc _ 0
    (by show 0 < 3; omega) S256x256 w0 rfl rfl 0 rfl (ix2 k q) ?_ ?_
  · intro b hb
    match b with
    | ⟨0, _⟩ => rfl
    | ⟨1, _⟩ => exact absurd rfl hb
  · rfl

/-- Column 256 + q of the concatenation is column q of the second matrix. -/
private theorem concat_col1 (hc : Shape.Concatenates [S256x256, S256x256, S256x256] S256x768 1)
    (w0 w1 w2 : FVec Ideal S256x256 .f32) (k q : Fin 256) :
    concatenate S256x768 1 [⟨S256x256, w0⟩, ⟨S256x256, w1⟩, ⟨S256x256, w2⟩] hc
      (ix2 k (⟨256 + q.val, by have := q.isLt; omega⟩ : Fin 768)) = w1 (ix2 k q) := by
  refine concatenate_apply_piece (1 : Fin S256x768.rank) [⟨S256x256, w0⟩, ⟨S256x256, w1⟩, ⟨S256x256, w2⟩] hc _ 1
    (by show 1 < 3; omega) S256x256 w1 rfl rfl 256 rfl (ix2 k q) ?_ ?_
  · intro b hb
    match b with
    | ⟨0, _⟩ => rfl
    | ⟨1, _⟩ => exact absurd rfl hb
  · rfl

/-- Column 512 + q of the concatenation is column q of the third matrix. -/
private theorem concat_col2 (hc : Shape.Concatenates [S256x256, S256x256, S256x256] S256x768 1)
    (w0 w1 w2 : FVec Ideal S256x256 .f32) (k q : Fin 256) :
    concatenate S256x768 1 [⟨S256x256, w0⟩, ⟨S256x256, w1⟩, ⟨S256x256, w2⟩] hc
      (ix2 k (⟨512 + q.val, by have := q.isLt; omega⟩ : Fin 768)) = w2 (ix2 k q) := by
  refine concatenate_apply_piece (1 : Fin S256x768.rank) [⟨S256x256, w0⟩, ⟨S256x256, w1⟩, ⟨S256x256, w2⟩] hc _ 2
    (by show 2 < 3; omega) S256x256 w2 rfl rfl 512 rfl (ix2 k q) ?_ ?_
  · intro b hb
    match b with
    | ⟨0, _⟩ => rfl
    | ⟨1, _⟩ => exact absurd rfl hb
  · rfl

/-- Column band 0 of the product with the concatenated weights is the product with weight matrix 0. -/
theorem band0_eq (d : DotDims S10000x256 S256x256 S10000x256) (hlc : d.lhsContracting = [1]) (hrc : d.rhsContracting = [0]) (hln : d.lhsNonContracting = [0]) (hrn : d.rhsNonContracting = [1]) (hlb : d.lhsBatch = []) (hrb : d.rhsBatch = [])
    (hc : Shape.Concatenates [S256x256, S256x256, S256x256] S256x768 1) (hs : S10000x768.Slices ![0, 0] S10000x256)
    (x : FVec Ideal S10000x256 .f32) (w0 w1 w2 : FVec Ideal S256x256 .f32) :
    extractStridedSlice S10000x256 ![0, 0] (matProd (n := 768) x (concatenate S256x768 1 [⟨S256x256, w0⟩, ⟨S256x256, w1⟩, ⟨S256x256, w2⟩] hc)) hs
      = Host.dotGeneral d none x w0 :=
  band_eq_dot 0 (by omega) d hlc hrc hln hrn hlb hrb hs x _ w0 (concat_col0 hc w0 w1 w2)

/-- Column band 1 of the product with the concatenated weights is the product with weight matrix 1. -/
theorem band1_eq (d : DotDims S10000x256 S256x256 S10000x256) (hlc : d.lhsContracting = [1]) (hrc : d.rhsContracting = [0]) (hln : d.lhsNonContracting = [0]) (hrn : d.rhsNonContracting = [1]) (hlb : d.lhsBatch = []) (hrb : d.rhsBatch = [])
    (hc : Shape.Concatenates [S256x256, S256x256, S256x256] S256x768 1) (hs : S10000x768.Slices ![0, 256] S10000x256)
    (x : FVec Ideal S10000x256 .f32) (w0 w1 w2 : FVec Ideal S256x256 .f32) :
    extractStridedSlice S10000x256 ![0, 256] (matProd (n := 768) x (concatenate S256x768 1 [⟨S256x256, w0⟩, ⟨S256x256, w1⟩, ⟨S256x256, w2⟩] hc)) hs
      = Host.dotGeneral d none x w1 :=
  band_eq_dot 256 (by omega) d hlc hrc hln hrn hlb hrb hs x _ w1 (concat_col1 hc w0 w1 w2)

/-- Column band 2 of the product with the concatenated weights is the product with weight matrix 2. -/
theorem band2_eq (d : DotDims S10000x256 S256x256 S10000x256) (hlc : d.lhsContracting = [1]) (hrc : d.rhsContracting = [0]) (hln : d.lhsNonContracting = [0]) (hrn : d.rhsNonContracting = [1]) (hlb : d.lhsBatch = []) (hrb : d.rhsBatch = [])
    (hc : Shape.Concatenates [S256x256, S256x256, S256x256] S256x768 1) (hs : S10000x768.Slices ![0, 512] S10000x256)
    (x : FVec Ideal S10000x256 .f32) (w0 w1 w2 : FVec Ideal S256x256 .f32) :
    extractStridedSlice S10000x256 ![0, 512] (matProd (n := 768) x (concatenate S256x768 1 [⟨S256x256, w0⟩, ⟨S256x256, w1⟩, ⟨S256x256, w2⟩] hc)) hs
      = Host.dotGeneral d none x w2 :=
  band_eq_dot 512 (by omega) d hlc hrc hln hrn hlb hrb hs x _ w2 (concat_col2 hc w0 w1 w2)

/-! ## Dividing by 3 is multiplying by 1/3 -/

/-- The word 0x40400000 denotes the real 3. -/
private theorem ofBits_three : Ideal.ofBits .f32 0x40400000#32 = ((3 : ℝ) : EReal) := by
  simp [Ideal.ofBits, Ideal.ieee, -EReal.coe_mul]; norm_num

/-- The combination, as the reference spells it: the sum divided by the constant 3, then the maximum with 0. -/
theorem combine_eq (hz : S_.BroadcastsInDim S10000x256 (![] : Fin 0 → Fin S10000x256.rank)) (a b c : FVec Ideal S10000x256 .f32) :
    combine a b c = maximumf (Host.divf (addf (addf a b) c) (broadcastInDim S10000x256 ![] hz (constant (F := Ideal) S_ .f32 0x40400000#32)))
      (broadcastInDim S10000x256 ![] hz (constant (F := Ideal) S_ .f32 0x00000000#32)) := by
  funext i
  simp only [combine, maximumf, Host.divf, addf, broadcastInDim, constant, Ideal.maximumf_def, Ideal.hostDivf_def,
    Ideal.addf_def, Ideal.ofBits_def, ofBits_three, Ideal.ofBits_zero_f32, Ideal.div_coe (by norm_num : (3 : ℝ) ≠ 0)]

end Cert.GraphConv

end
-- ==== Proof.RefValue.lean ====
/-
  The reference's result as a formula of its arguments: the three dense products x · W1, x · W2, x · W3 propagated once,
  twice and three times through the sparse matrix (vals, src, dst), added, divided by 3, and cut off at 0 from below.
  The run's composed term is exactly this nesting, each sparse propagation being the one function of the specification.
-/
import proofs.«111617_j71631464562989_1_alg».proof.Proof.Gen.ReferenceIdeal.Run
import proofs.«111617_j71631464562989_1_alg».proof.Proof.Spec

noncomputable section

namespace Cert.ReferenceIdeal.RefValue

open Cert.ReferenceIdeal Idealize.ShloMosaic Idealize.ShloMosaic.TcCoe Idealize.SL.Sem

variable {F : FTy → Type} [FloatOps F]
variable (m : (ℓ : Loc nD τ sig) → Buf (Elt F) ℓ)

/-- One sparse propagation over the reference's edge list, with the reference's own shape records. -/
abbrev prop1 (c : Dev nD) (h : (⟨S10000x256, .f32⟩ : BufTy).Contents (Elt F)) : (⟨S10000x256, .f32⟩ : BufTy).Contents (Elt F) :=
  Cert.GraphConv.spmm Facts₀.bcast_S320000_S320000x1_0 Facts₀.bcast_S_S320000 Facts₀.bcast_S320000x1_S320000x256_0_1 Facts₀.bcast_S_S10000x256
    gather_S10000x256_S320000x1_S320000x256_1_0_n_n_0_1_1256 scatter_S10000x256_S320000x1_S320000x256_1_0_0_1
    (m ((c.tc : Thread nD τ).loc main_arg1)) (m ((c.tc : Thread nD τ).loc main_arg5)) (m ((c.tc : Thread nD τ).loc main_arg6)) h

/-- The dense product of the node features with weight argument `k`. -/
abbrev dense (c : Dev nD) (w : (⟨S256x256, .f32⟩ : BufTy).Contents (Elt F)) : (⟨S10000x256, .f32⟩ : BufTy).Contents (Elt F) :=
  Host.dotGeneral dot_S10000x256_S256x256_S10000x256_1_0_0_1_n_n none (m ((c.tc : Thread nD τ).loc main_arg0)) w

set_option maxRecDepth 8192 in
set_option maxHeartbeats 4000000 in
/-- The reference's result term is max(((A·xW1 + A·A·xW2) + A·A·A·xW3) / 3, 0). -/
theorem res_eq (c : Dev nD) : Cert.ReferenceIdeal.Value.res_main_v85 (F := F) m c
    = maximumf (Host.divf (addf (addf (prop1 m c (dense m c (m ((c.tc : Thread nD τ).loc main_arg2)))) (prop1 m c (prop1 m c (dense m c (m ((c.tc : Thread nD τ).loc main_arg3))))))
          (prop1 m c (prop1 m c (prop1 m c (dense m c (m ((c.tc : Thread nD τ).loc main_arg4)))))))
        (broadcastInDim S10000x256 ![] Facts₀.bcast_S_S10000x256 (constant (F := F) S_ .f32 0x40400000#32)))
      (broadcastInDim S10000x256 ![] Facts₀.bcast_S_S10000x256 (constant (F := F) S_ .f32 0x00000000#32)) := by
  unfold Cert.ReferenceIdeal.Value.res_main_v85
  dsimp only [prop1, dense, Cert.GraphConv.spmm]

end Cert.ReferenceIdeal.RefValue

end
-- ==== Proof.lean ====
/-
  The certificate of the graph-convolution block: a Pallas kernel program (a fused dense projection x · [W1 | W2 | W3] on
  the matrix unit, the sparse propagations on the host, a pointwise combine kernel) against its jnp reference
  relu((A·xW1 + A²·xW2 + A³·xW3) / 3).

  Frames: each kernel program is two pipelined regions among host operations; its run is the launch over @main's four
  segments (Proof/IdealRun.lean, Proof/BitsRun.lean), and the reference's is its generated run.
  Values, on the extended reals: region 0 leaves the product with the concatenated weights (Proof/ProdValue.lean),
  whose column bands are the three dense products (Proof/Algebra.lean); the host operations between the regions
  propagate the bands (Proof/HostChain.lean); region 1 leaves max(((a + b) + c) · (1/3), 0) (Proof/CombValue.lean),
  the kernel's factor being the named constant 1/3; the reference divides by 3, which is the same on every extended
  real (Proof/Algebra.lean). No step needs the inputs finite.
-/
import proofs.«111617_j71631464562989_1_alg».proof.Defs
import proofs.«111617_j71631464562989_1_alg».proof.Proof.Gen.Kernel
import proofs.«111617_j71631464562989_1_alg».proof.Proof.Gen.KernelIdeal
import proofs.«111617_j71631464562989_1_alg».proof.Proof.Gen.ReferenceIdeal
import proofs.«111617_j71631464562989_1_alg».proof.Proof.Gen.Pre_finite_inputs
import proofs.«111617_j71631464562989_1_alg».proof.Proof.BitsRun
import proofs.«111617_j71631464562989_1_alg».proof.Proof.IdealRun
import proofs.«111617_j71631464562989_1_alg».proof.Proof.ProdValue
import proofs.«111617_j71631464562989_1_alg».proof.Proof.CombValue
import proofs.«111617_j71631464562989_1_alg».proof.Proof.HostChain
import proofs.«111617_j71631464562989_1_alg».proof.Proof.Algebra
import proofs.«111617_j71631464562989_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-! ## The kernel's result as a formula of its arguments -/

section KernelValue

open Cert.KernelIdeal Cert.KernelIdeal.Gen Cert.KernelIdeal.Hand

variable (m : (ℓ : Loc nD τ sig) → Buf (Elt Ideal) ℓ) (ρ : Dev nD → PrngReg)

/-- The dense product of the node features with one weight argument, as the reference spells it. -/
abbrev dense (c : Dev nD) (w : (⟨S256x256, .f32⟩ : BufTy).Contents (Elt Ideal)) : (⟨S10000x256, .f32⟩ : BufTy).Contents (Elt Ideal) :=
  Host.dotGeneral (F := Ideal) (φ₁ := .f32) (φ₂ := .f32) Cert.ReferenceIdeal.dot_S10000x256_S256x256_S10000x256_1_0_0_1_n_n none (m ((c.tc : Thread Cert.KernelIdeal.nD Cert.KernelIdeal.τ).loc Cert.KernelIdeal.main_arg0)) w

/-- Region 0 leaves in its result array the product of the features with the three weight matrices side by side. -/
theorem prod_value (c : Dev nD) : W2 m ρ c (Proc.devRef .tc main_v1)
    = Cert.GraphConv.matProd (n := 768) (m ((c.tc : Thread Cert.KernelIdeal.nD Cert.KernelIdeal.τ).loc Cert.KernelIdeal.main_arg0))
        (concatenate S256x768 1 [⟨S256x256, (m ((c.tc : Thread Cert.KernelIdeal.nD Cert.KernelIdeal.τ).loc Cert.KernelIdeal.main_arg2))⟩, ⟨S256x256, (m ((c.tc : Thread Cert.KernelIdeal.nD Cert.KernelIdeal.τ).loc Cert.KernelIdeal.main_arg3))⟩, ⟨S256x256, (m ((c.tc : Thread Cert.KernelIdeal.nD Cert.KernelIdeal.τ).loc Cert.KernelIdeal.main_arg4))⟩] Facts₀.concatenates_S256x256_S256x256_S256x256_S256x768_d1) :=
  (W2_arr m ρ c 2).trans ((prod_arr (V1 m ρ) c).trans (by
    rw [show V1 m ρ c main_arg0 = W1 m ρ c (Proc.devRef .tc main_arg0) from rfl, W1_main_arg0,
      show V1 m ρ c main_v0 = W1 m ρ c (Proc.devRef .tc main_v0) from rfl, W1_main_v0]))

/-- Each column band of that product is the product with one weight matrix. -/
theorem band0_value (c : Dev nD) : band0 m ρ c = dense m c (m ((c.tc : Thread Cert.KernelIdeal.nD Cert.KernelIdeal.τ).loc Cert.KernelIdeal.main_arg2)) := by
  unfold band0; rw [prod_value]
  exact Cert.GraphConv.band0_eq Cert.ReferenceIdeal.dot_S10000x256_S256x256_S10000x256_1_0_0_1_n_n rfl rfl rfl rfl rfl rfl _ _ _ _ _ _
theorem band1_value (c : Dev nD) : band1 m ρ c = dense m c (m ((c.tc : Thread Cert.KernelIdeal.nD Cert.KernelIdeal.τ).loc Cert.KernelIdeal.main_arg3)) := by
  unfold band1; rw [prod_value]
  exact Cert.GraphConv.band1_eq Cert.ReferenceIdeal.dot_S10000x256_S256x256_S10000x256_1_0_0_1_n_n rfl rfl rfl rfl rfl rfl _ _ _ _ _ _
theorem band2_value (c : Dev nD) : band2 m ρ c = dense m c (m ((c.tc : Thread Cert.KernelIdeal.nD Cert.KernelIdeal.τ).loc Cert.KernelIdeal.main_arg4)) := by
  unfold band2; rw [prod_value]
  exact Cert.GraphConv.band2_eq Cert.ReferenceIdeal.dot_S10000x256_S256x256_S10000x256_1_0_0_1_n_n rfl rfl rfl rfl rfl rfl _ _ _ _ _ _

/-- What the kernel returns: the three dense products propagated once, twice and three times, combined pointwise. -/
def kernelOut (c : Dev nD) : FVec Ideal Cert.GraphConv.S10000x256 .f32 :=
  Cert.GraphConv.combine (prop1 m c (dense m c (m ((c.tc : Thread Cert.KernelIdeal.nD Cert.KernelIdeal.τ).loc Cert.KernelIdeal.main_arg2)))) (prop1 m c (prop1 m c (dense m c (m ((c.tc : Thread Cert.KernelIdeal.nD Cert.KernelIdeal.τ).loc Cert.KernelIdeal.main_arg3)))))
    (prop1 m c (prop1 m c (prop1 m c (dense m c (m ((c.tc : Thread Cert.KernelIdeal.nD Cert.KernelIdeal.τ).loc Cert.KernelIdeal.main_arg4))))))

theorem kernel_value (c : Dev nD) : W4 m ρ c (Proc.devRef .tc main_v83) = kernelOut m c :=
  (W4_arr m ρ c 3).trans ((comb_arr (V3 m ρ) c).trans (by
    rw [show V3 m ρ c main_v17 = W3 m ρ c (Proc.devRef .tc main_v17) from rfl, W3_main_v17,
      show V3 m ρ c main_v43 = W3 m ρ c (Proc.devRef .tc main_v43) from rfl, W3_main_v43,
      show V3 m ρ c main_v82 = W3 m ρ c (Proc.devRef .tc main_v82) from rfl, W3_main_v82,
      band0_value, band1_value, band2_value]
    rfl))

end KernelValue

/-! ## The claims -/

theorem frame_k : Cert.frame_Kernel := fun m ρ _ => Cert.Kernel.Hand.frame m ρ
theorem frame_ki : Cert.frame_KernelIdeal := fun m ρ _ => Cert.KernelIdeal.Hand.frame m ρ
theorem frame_r : Cert.frame_ReferenceIdeal := fun m ρ _ =>
  (θ_run Cert.ReferenceIdeal.defs _ _).mono (fun _ h c => (h c).2) (Cert.ReferenceIdeal.Value.run (F := Ideal) m ρ)

/-- The one rewrite of the idealization: the kernel's factor 0.3333333432674408 is named, and the name denotes 1/3. -/
theorem preserves : Cert.preserves_Kernel_KernelIdeal :=
  IdealRules.named_const.statement Cert.KernelIdeal.κ "inv_3" .f32 0x3EAAAAAB#32 ((1 / 3 : ℝ) : EReal) rfl

open Cert.KernelIdeal.Hand in
/-- From memories agreeing on the arguments both programs end with the same result: the kernel's at the combination of
    the propagated dense products (its two regions' values and the host stretches between them), the reference's at
    the same sums divided by 3 and cut off at 0, which is the combination entry by entry. -/
theorem algebraic : Cert.algebraic_KernelIdeal_ReferenceIdeal := by
  intro m ρ m' ρ' _ hagree
  refine ⟨fun c => kernelOut m c, ?_, ?_⟩
  · exact (θ_run Cert.KernelIdeal.defs _ _).mono (fun r h c =>
      ⟨(h c _ (mem_uc Cert.KernelIdeal.main_v83 (by decide))).trans (kernel_value m ρ c),
       (h c _ (mem_uc Cert.KernelIdeal.main_arg0 (by decide))).trans (W4_main_arg0 m ρ c),
       (h c _ (mem_uc Cert.KernelIdeal.main_arg1 (by decide))).trans (W4_main_arg1 m ρ c),
       (h c _ (mem_uc Cert.KernelIdeal.main_arg2 (by decide))).trans (W4_main_arg2 m ρ c),
       (h c _ (mem_uc Cert.KernelIdeal.main_arg3 (by decide))).trans (W4_main_arg3 m ρ c),
       (h c _ (mem_uc Cert.KernelIdeal.main_arg4 (by decide))).trans (W4_main_arg4 m ρ c),
       (h c _ (mem_uc Cert.KernelIdeal.main_arg5 (by decide))).trans (W4_main_arg5 m ρ c),
       (h c _ (mem_uc Cert.KernelIdeal.main_arg6 (by decide))).trans (W4_main_arg6 m ρ c)⟩) (run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq]
    dsimp only [Cert.ReferenceIdeal.RefValue.prop1, Cert.ReferenceIdeal.RefValue.dense]
    rw [(hagree c).1, (hagree c).2.1, (hagree c).2.2.1, (hagree c).2.2.2.1, (hagree c).2.2.2.2.1, (hagree c).2.2.2.2.2.1, (hagree c).2.2.2.2.2.2]
    exact (Cert.GraphConv.combine_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_r, preserves, algebraic⟩

end Cert.Proof

end
